-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S1000x256 : Shape := ⟨2, ![1000, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S262144x256 .f32) (main_arg1 : IVec S262144 32) (main_arg2 : FVec F S1000x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1000x256 .f32 := Host.absf main_arg2
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  main_v8
-- ==== Kernel.lean ====
abbrev S262144x256 : Shape := ⟨2, ![262144, 256]⟩
abbrev S262144 : Shape := ⟨1, ![262144]⟩
abbrev S1000x256 : Shape := ⟨2, ![1000, 256]⟩
abbrev S262144x1 : Shape := ⟨2, ![262144, 1]⟩
abbrev S2x1024x256 : Shape := ⟨3, ![2, 1024, 256]⟩
abbrev S2x1x1024 : Shape := ⟨3, ![2, 1, 1024]⟩
abbrev S2048x256 : Shape := ⟨2, ![2048, 256]⟩
abbrev S2048x1 : Shape := ⟨2, ![2048, 1]⟩
abbrev S1x1024x256 : Shape := ⟨3, ![1, 1024, 256]⟩
abbrev S1x1x1024 : Shape := ⟨3, ![1, 1, 1024]⟩
abbrev S1024x256 : Shape := ⟨2, ![1024, 256]⟩
abbrev S1x1024 : Shape := ⟨2, ![1, 1024]⟩
abbrev S2048x1024 : Shape := ⟨2, ![2048, 1024]⟩
abbrev S1024 : Shape := ⟨1, ![1024]⟩
abbrev S1000 : Shape := ⟨1, ![1000]⟩
abbrev S_ : Shape := ⟨0, ![]⟩
abbrev S1000x1 : Shape := ⟨2, ![1000, 1]⟩

abbrev nBuf : Space → Nat
  | .hbm => 37
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S262144x1, .i32⟩
  | .hbm, ⟨4, _⟩ => ⟨S2x1024x256, .f32⟩
  | .hbm, ⟨5, _⟩ => ⟨S2x1x1024, .f32⟩
  | .hbm, ⟨6, _⟩ => ⟨S1x1024x256, .f32⟩
  | .hbm, ⟨7, _⟩ => ⟨S1024x256, .f32⟩
  | .hbm, ⟨8, _⟩ => ⟨S1x1024x256, .f32⟩
  | .hbm, ⟨9, _⟩ => ⟨S1024x256, .f32⟩
  | .hbm, ⟨10, _⟩ => ⟨S1024x256, .f32⟩
  | .hbm, ⟨11, _⟩ => ⟨S1x1x1024, .f32⟩
  | .hbm, ⟨12, _⟩ => ⟨S1024, .f32⟩
  | .hbm, ⟨13, _⟩ => ⟨S1x1x1024, .f32⟩
  | .hbm, ⟨14, _⟩ => ⟨S1024, .f32⟩
  | .hbm, ⟨15, _⟩ => ⟨S1024, .f32⟩
  | .hbm, ⟨16, _⟩ => ⟨S1000x256, .f32⟩
  | .hbm, ⟨17, _⟩ => ⟨S1000, .f32⟩
  | .hbm, ⟨18, _⟩ => ⟨S_, .f32⟩
  | .hbm, ⟨19, _⟩ => ⟨S1000, .f32⟩
  | .hbm, ⟨20, _⟩ => ⟨S1000, .i1⟩
  | .hbm, ⟨21, _⟩ => ⟨S_, .f32⟩
  | .hbm, ⟨22, _⟩ => ⟨S1000, .f32⟩
  | .hbm, ⟨23, _⟩ => ⟨S1000, .f32⟩
  | .hbm, ⟨24, _⟩ => ⟨S1000x1, .f32⟩
  | .hbm, ⟨25, _⟩ => ⟨S1000x256, .f32⟩
  | .hbm, ⟨26, _⟩ => ⟨S1000x256, .f32⟩
  | .hbm, ⟨27, _⟩ => ⟨S_, .f32⟩
  | .hbm, ⟨28, _⟩ => ⟨S1000x256, .f32⟩
  | .hbm, ⟨29, _⟩ => ⟨S1000x256, .f32⟩
  | .hbm, ⟨30, _⟩ => ⟨S_, .f32⟩
  | .hbm, ⟨31, _⟩ => ⟨S1000x256, .f32⟩
  | .hbm, ⟨32, _⟩ => ⟨S1000x256, .f32⟩
  | .hbm, ⟨33, _⟩ => ⟨S1000x256, .f32⟩
  | .hbm, ⟨34, _⟩ => ⟨S1000x1, .i1⟩
  | .hbm, ⟨35, _⟩ => ⟨S1000x256, .i1⟩
  | .hbm, ⟨36, _⟩ => ⟨S1000x256, .f32⟩
  | .local _ .vmem, ⟨0, _⟩ => ⟨S2048x256, .f32⟩
  | .local _ .vmem, ⟨1, _⟩ => ⟨S2048x256, .f32⟩
  | .local _ .vmem, ⟨2, _⟩ => ⟨S2048x1, .i32⟩
  | .local _ .vmem, ⟨3, _⟩ => ⟨S2048x1, .i32⟩
  | .local _ .vmem, ⟨4, _⟩ => ⟨S1x1024x256, .f32⟩
  | .local _ .vmem, ⟨5, _⟩ => ⟨S1x1024x256, .f32⟩
  | .local _ .vmem, ⟨6, _⟩ => ⟨S1x1x1024, .f32⟩
  | .local _ .vmem, ⟨7, _⟩ => ⟨S1x1x1024, .f32⟩
  | .local _ .vmem, ⟨8, _⟩ => ⟨S1024x256, .f32⟩
  | .local _ .vmem, ⟨9, _⟩ => ⟨S1x1024, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v27 : BitVec 1 := Scalar.cmpi .eq arg1 c63_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S262144_S262144x1 : S262144.ShapeCasts S262144x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  reduces_S2048x1024_S1024 : S2048x1024.Reduces [0] S1024
  shapeCasts_S1024_S1x1024 : S1024.ShapeCasts S1x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  slices_S2x1024x256_S1x1024x256_0_0_0 : S2x1024x256.Slices ![0, 0, 0] S1x1024x256
  slices_S2x1024x256_S1x1024x256_1_0_0 : S2x1024x256.Slices ![1, 0, 0] S1x1024x256
  slices_S2x1x1024_S1x1x1024_0_0_0 : S2x1x1024.Slices ![0, 0, 0] S1x1x1024
  shapeCasts_S1x1x1024_S1024 : S1x1x1024.ShapeCasts S1024
  slices_S2x1x1024_S1x1x1024_1_0_0 : S2x1x1024.Slices ![1, 0, 0] S1x1x1024
  slices_S1024x256_S1000x256_0_0 : S1024x256.Slices ![0, 0] S1000x256
  slices_S1024_S1000_0 : S1024.Slices ![0] S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  bcast_S_S1000x256 : S_.BroadcastsInDim S1000x256 (![] : Fin 0 → Fin S1000x256.rank)
  dot_S2048x1024_S2048x256_S1024x256_0_0_1_1_n_n_wf : DotDims.WF S2048x1024 S2048x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)

variable [Facts₀]

def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144x256 : Shape := ⟨2, ![262144, 256]⟩
abbrev S262144 : Shape := ⟨1, ![262144]⟩
abbrev S1000x256 : Shape := ⟨2, ![1000, 256]⟩
abbrev S_ : Shape := ⟨0, ![]⟩
abbrev S262144x1 : Shape := ⟨2, ![262144, 1]⟩
abbrev S1000 : Shape := ⟨1, ![1000]⟩
abbrev S1000x1 : Shape := ⟨2, ![1000, 1]⟩

abbrev nBuf : Space → Nat
  | .hbm => 32
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S_, .f32⟩
  | .hbm, ⟨4, _⟩ => ⟨S1000x256, .f32⟩
  | .hbm, ⟨5, _⟩ => ⟨S262144x1, .i32⟩
  | .hbm, ⟨6, _⟩ => ⟨S1000x256, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S1000, .f32⟩
  | .hbm, ⟨11, _⟩ => ⟨S262144x1, .i32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .i1⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S1000x1, .f32⟩
  | .hbm, ⟨20, _⟩ => ⟨S1000x256, .f32⟩
  | .hbm, ⟨21, _⟩ => ⟨S1000x256, .f32⟩
  | .hbm, ⟨22, _⟩ => ⟨S_, .f32⟩
  | .hbm, ⟨23, _⟩ => ⟨S1000x256, .f32⟩
  | .hbm, ⟨24, _⟩ => ⟨S1000x256, .f32⟩
  | .hbm, ⟨25, _⟩ => ⟨S_, .f32⟩
  | .hbm, ⟨26, _⟩ => ⟨S1000x256, .f32⟩
  | .hbm, ⟨27, _⟩ => ⟨S1000x256, .f32⟩
  | .hbm, ⟨28, _⟩ => ⟨S1000x256, .f32⟩
  | .hbm, ⟨29, _⟩ => ⟨S1000x1, .i1⟩
  | .hbm, ⟨30, _⟩ => ⟨S1000x256, .i1⟩
  | .hbm, ⟨31, _⟩ => ⟨S1000x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S1000x256 : S_.BroadcastsInDim S1000x256 (![] : Fin 0 → Fin S1000x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  scatter_S1000x256_S262144x1_S262144x256_1_0_0_1_wf : ScatterDims.WF S1000x256 S262144x1 S262144x256 [1] [0] [0] 1
  scatter_S1000_S262144x1_S262144_n_0_0_1_wf : ScatterDims.WF S1000 S262144x1 S262144 [] [0] [0] 1

variable [Facts₀]

def scatter_S1000x256_S262144x1_S262144x256_1_0_0_1 : ScatterDims S1000x256 S262144x1 S262144x256 where
  updateWindowDims := [1]
  insertedWindowDims := [0]
  scatterDimsToOperandDims := [0]
  indexVectorDim := 1
  wf := scatter_S1000x256_S262144x1_S262144x256_1_0_0_1_wf
def scatter_S1000_S262144x1_S262144_n_0_0_1 : ScatterDims S1000 S262144x1 S262144 where
  updateWindowDims := []
  insertedWindowDims := [0]
  scatterDimsToOperandDims := [0]
  indexVectorDim := 1
  wf := scatter_S1000_S262144x1_S262144_n_0_0_1_wf

class Facts : Prop extends Facts₀ where

variable [Facts]
-- ==== Proof.Pieces.lean ====
/-
  What each control case of the kernel body leaves in the two carried accumulators and, at a core's last step, in the
  two output blocks, as values of the tile it was given.

  First step of a core (the accumulators are cleared, then updated): the sums accumulator holds the tile's class sums
  over a zero accumulator, the counts accumulator the tile's class counts over zero. Every later step: the same over
  what the step before left. The last step also copies both accumulators, as they stand after its own update, into
  the output blocks under a leading unit axis.
-/
import proofs.«413044_j53850299957289_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- FIRST STEP, sums accumulator: cleared, then the tile's class sums added. -/
theorem sums_first (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : cond0_0 i) (hc1 : ¬cond0_1 i) (x0 : Vec F S2048x256 .f32) (x1 : Vec F S2048x1 .i32) :
    sout0_A_0 c i arg2 harg2 arg3 harg3 arg4 harg4 arg5 harg5 arg6 harg6 arg7 harg7 hc0 hc1 x0 x1 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x256) hz2]
  simp only [View.readAt_eq_ld, harg2.read_unread, harg3.read_unread, harg6.read_unread, harg7.read_unread,
    View.ld_unit_zero (S := S2048x256) hz2, View.ld_unit_zero (S := S2048x1) hz2, View.ld_unit_zero (S := S1024x256) hz2,
    View.ld_unit_zero (S := S1x1024) hz2, View.readCov_unit_zero (S := S1024x256) _ hz2, View.readCov_unit_zero (S := S1x1024) _ hz2]

/-- FIRST STEP, counts accumulator: cleared, then the tile's class counts added. -/
theorem counts_first (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : cond0_0 i) (hc1 : ¬cond0_1 i) (x0 : Vec F S2048x256 .f32) (x1 : Vec F S2048x1 .i32) :
    sout0_A_1 c i arg2 harg2 arg3 harg3 arg4 harg4 arg5 harg5 arg6 harg6 arg7 harg7 hc0 hc1 x0 x1 = k0_pay5 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1024) hz2]
  simp only [View.readAt_eq_ld, harg2.read_unread, harg3.read_unread, harg6.read_unread, harg7.read_unread,
    View.ld_unit_zero (S := S2048x256) hz2, View.ld_unit_zero (S := S2048x1) hz2, View.ld_unit_zero (S := S1024x256) hz2,
    View.ld_unit_zero (S := S1x1024) hz2, View.readCov_unit_zero (S := S1024x256) _ hz2, View.readCov_unit_zero (S := S1x1024) _ hz2]

/-- A MIDDLE STEP, sums accumulator: the tile's class sums added to what the step before left. -/
theorem sums_mid (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : ¬cond0_1 i) (x0 : Vec F S2048x256 .f32) (x1 : Vec F S2048x1 .i32) (xs0 : Vec F S1024x256 .f32) (xs1 : Vec F S1x1024 .f32) :
    sout0_B_0 c i arg2 harg2 arg3 harg3 arg4 harg4 arg5 harg5 arg6 harg6 arg7 harg7 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero (S := S1024x256) hz2]
  simp only [View.readAt_eq_ld, harg2.read_unread, harg3.read_unread, harg6.read_unread, harg7.read_unread,
    View.ld_unit_zero (S := S2048x256) hz2, View.ld_unit_zero (S := S2048x1) hz2, View.ld_unit_zero (S := S1024x256) hz2,
    View.ld_unit_zero (S := S1x1024) hz2, View.readCov_unit_zero (S := S1024x256) _ hz2, View.readCov_unit_zero (S := S1x1024) _ hz2]

/-- A MIDDLE STEP, counts accumulator. -/
theorem counts_mid (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : ¬cond0_1 i) (x0 : Vec F S2048x256 .f32) (x1 : Vec F S2048x1 .i32) (xs0 : Vec F S1024x256 .f32) (xs1 : Vec F S1x1024 .f32) :
    sout0_B_1 c i arg2 harg2 arg3 harg3 arg4 harg4 arg5 harg5 arg6 harg6 arg7 harg7 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x1024) hz2]
  simp only [View.readAt_eq_ld, harg2.read_unread, harg3.read_unread, harg6.read_unread, harg7.read_unread,
    View.ld_unit_zero (S := S2048x256) hz2, View.ld_unit_zero (S := S2048x1) hz2, View.ld_unit_zero (S := S1024x256) hz2,
    View.ld_unit_zero (S := S1x1024) hz2, View.readCov_unit_zero (S := S1024x256) _ hz2, View.readCov_unit_zero (S := S1x1024) _ hz2]

/-- THE LAST STEP, sums accumulator: as a middle step. -/
theorem sums_last (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : cond0_1 i) (x0 : Vec F S2048x256 .f32) (x1 : Vec F S2048x1 .i32) (xs0 : Vec F S1024x256 .f32) (xs1 : Vec F S1x1024 .f32) :
    sout0_C_0 c i arg2 harg2 arg3 harg3 arg4 harg4 arg5 harg5 arg6 harg6 arg7 harg7 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S1024x256) hz2]
  simp only [View.readAt_eq_ld, harg2.read_unread, harg3.read_unread, harg6.read_unread, harg7.read_unread,
    View.ld_unit_zero (S := S2048x256) hz2, View.ld_unit_zero (S := S2048x1) hz2, View.ld_unit_zero (S := S1024x256) hz2,
    View.ld_unit_zero (S := S1x1024) hz2, View.readCov_unit_zero (S := S1024x256) _ hz2, View.readCov_unit_zero (S := S1x1024) _ hz2]

/-- THE LAST STEP, counts accumulator. -/
theorem counts_last (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : cond0_1 i) (x0 : Vec F S2048x256 .f32) (x1 : Vec F S2048x1 .i32) (xs0 : Vec F S1024x256 .f32) (xs1 : Vec F S1x1024 .f32) :
    sout0_C_1 c i arg2 harg2 arg3 harg3 arg4 harg4 arg5 harg5 arg6 harg6 arg7 harg7 hc0 hc1 x0 x1 xs0 xs1 = k0_pay5 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1024) hz2]
  simp only [View.readAt_eq_ld, harg2.read_unread, harg3.read_unread, harg6.read_unread, harg7.read_unread,
    View.ld_unit_zero (S := S2048x256) hz2, View.ld_unit_zero (S := S2048x1) hz2, View.ld_unit_zero (S := S1024x256) hz2,
    View.ld_unit_zero (S := S1x1024) hz2, View.readCov_unit_zero (S := S1024x256) _ hz2, View.readCov_unit_zero (S := S1x1024) _ hz2]

/-- THE LAST STEP, sums output block: the updated sums accumulator under a leading unit axis. -/
theorem sums_block_last (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : cond0_1 i) (x0 : Vec F S2048x256 .f32) (x1 : Vec F S2048x1 .i32) (xs0 : Vec F S1024x256 .f32) (xs1 : Vec F S1x1024 .f32) :
    out0_C_2 c i arg2 harg2 arg3 harg3 arg4 harg4 arg5 harg5 arg6 harg6 arg7 harg7 hc0 hc1 x0 x1 xs0 xs1 = k0_pay6 (k0_pay4 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1024x256) hz3]
  simp only [View.readAt_eq_ld, harg2.read_unread, harg3.read_unread, harg6.read_unread, harg7.read_unread,
    View.ld_unit_zero (S := S2048x256) hz2, View.ld_unit_zero (S := S2048x1) hz2, View.ld_unit_zero (S := S1024x256) hz2,
    View.ld_unit_zero (S := S1x1024) hz2, View.readCov_unit_zero (S := S1024x256) _ hz2, View.readCov_unit_zero (S := S1x1024) _ hz2]

/-- THE LAST STEP, counts output block: the updated counts accumulator under a leading unit axis. -/
theorem counts_block_last (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : cond0_1 i) (x0 : Vec F S2048x256 .f32) (x1 : Vec F S2048x1 .i32) (xs0 : Vec F S1024x256 .f32) (xs1 : Vec F S1x1024 .f32) :
    out0_C_3 c i arg2 harg2 arg3 harg3 arg4 harg4 arg5 harg5 arg6 harg6 arg7 harg7 hc0 hc1 x0 x1 xs0 xs1 = k0_pay7 (k0_pay5 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x1024) hz3]
  simp only [View.readAt_eq_ld, harg2.read_unread, harg3.read_unread, harg6.read_unread, harg7.read_unread,
    View.ld_unit_zero (S := S2048x256) hz2, View.ld_unit_zero (S := S2048x1) hz2, View.ld_unit_zero (S := S1024x256) hz2,
    View.ld_unit_zero (S := S1x1024) hz2, View.readCov_unit_zero (S := S1024x256) _ hz2, View.readCov_unit_zero (S := S1x1024) _ hz2]

end Cert.KernelIdeal.Pieces

end
-- ==== Proof.Payload.lean ====
/-
  The kernel body's stored values, read at an index at the ideal values (a float an extended real, a change of
  format the identity).

  A grid point holds a tile of 2048 feature rows and their 2048 labels. The body compares each label with the class
  numbers 0 … 1023 along the lanes; the comparison's bit, widened and converted, is the extended real 1 where the
  label is the class number and 0 elsewhere. Contracting that 2048 × 1024 indicator with the 2048 × 256 feature tile
  over the ROW axis of both gives, at (class k, column d), the sum of the rows of the tile labelled k; summing the
  indicator over the row axis gives the number of those rows. Each is added to what the accumulator held. The two
  clearing stores hold zero, and the two copies at the last step move the accumulators unchanged under a reshape.
-/
import proofs.«413044_j53850299957289_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-! ## Words: the lane number and the comparison's bit -/

/-- A lane number below 1024, written as a 32-bit word, reads back as itself when the word is read signed. -/
private theorem toInt_ofNat_lane (k : Fin 1024) : (BitVec.ofNat 32 k.val).toInt = (k.val : Int) := by
  have hk := k.isLt
  rw [BitVec.toInt_eq_toNat_cond, BitVec.toNat_ofNat]
  omega

/-- The bit of "the word `w` equals the lane number `k`", widened to 32 bits and converted, is the extended real 1
    where `w` read signed is `k`, and 0 elsewhere: a word is determined by its signed reading. -/
private theorem ind_word (w : BitVec 32) (k : Fin 1024) :
    ((((IntOp.cmpi .eq w (BitVec.ofNat 32 k.val)).setWidth 32).toInt : ℝ) : EReal)
      = if w.toInt = (k.val : Int) then (1 : EReal) else 0 := by
  by_cases h : w = BitVec.ofNat 32 k.val
  · have h' : w.toInt = (k.val : Int) := by rw [h]; exact toInt_ofNat_lane k
    rw [if_pos h']
    have e1 : IntOp.cmpi .eq w (BitVec.ofNat 32 k.val) = 1#1 := by
      simp [IntOp.cmpi, h]
    rw [e1]
    have e2 : ((1#1 : BitVec 1).setWidth 32).toInt = 1 := by decide
    rw [e2]; simp
  · have h' : ¬ w.toInt = (k.val : Int) :=
      fun e => h (BitVec.eq_of_toInt_eq (e.trans (toInt_ofNat_lane k).symm))
    rw [if_neg h']
    have hb : (w == BitVec.ofNat 32 k.val) = false := beq_eq_false_iff_ne.mpr h
    have e1 : IntOp.cmpi .eq w (BitVec.ofNat 32 k.val) = 0#1 := by
      simp only [IntOp.cmpi, hb]; rfl
    rw [e1]
    have e2 : ((0#1 : BitVec 1).setWidth 32).toInt = 0 := by decide
    rw [e2]; simp

/-! ## The indicator at (row, class) -/

/-- The label column broadcast along the lanes reads, at (r, k), row r's label. -/
private theorem bcast_col (x : IVec S2048x1 32) (h : S2048x1.Broadcasts S2048x1024) (r : Fin 2048) (k : Fin 1024) :
    broadcastTo S2048x1024 x h (ix2 r k) = x (ix2 r 0) := by
  refine broadcastTo_apply x h (ix2 r k) (ix2 r 0) fun a => ?_
  match a with
  | ⟨0, _⟩ => rfl
  | ⟨1, _⟩ => rfl

/-- THE INDICATOR: at (r, k) it is 1 where row r's label, read signed, is the class number k, and 0 elsewhere. -/
private theorem pay3_apply (x1 : Vec Ideal S2048x1 .i32) (r : Fin 2048) (k : Fin 1024) :
    k0_pay3 (F := Ideal) x1 (ix2 r k)
      = if (x1 (ix2 r 0)).toInt = (k.val : Int) then (1 : EReal) else 0 := by
  unfold k0_pay3
  show ((((IntOp.cmpi .eq (broadcastTo S2048x1024 (shapeCast S2048x1 x1 _) _ (ix2 r k))
      (iota .tc S2048x1024 32 [1] _ (ix2 r k))).setWidth 32).toInt : ℝ) : EReal) = _
  rw [shapeCast_self, bcast_col, iota_single_apply]
  exact ind_word _ k

/-! ## The two sums over the row axis -/

/-- The class index k with the row r inserted on the summed axis is (r, k). -/
private theorem lift_row (h : S2048x1024.Reduces [0] S1024) (k : Fin 1024) (r : Fin 2048) :
    h.lift (ix1 k) r = ix2 r k := by
  funext a; apply Fin.ext
  match a with
  | ⟨0, _⟩ => rfl
  | ⟨1, _⟩ => rfl

/-- The product contracting the ROW axis of both operands, into the zero accumulator: at (k, d) the sum over the
    rows r of A (r, k) · B (r, d). The contraction index is its one coordinate; on the contracted axis each operand's
    index reads that coordinate, on the other axis the result's own coordinate. -/
private theorem matmul_rows (A : FVec Ideal S2048x1024 .bf16) (B : FVec Ideal S2048x256 .bf16)
    (k : Fin 1024) (d : Fin 256) :
    FloatOps.matmul dot_S2048x1024_S2048x256_S1024x256_0_0_1_1_n_n none A B
        (constant S1024x256 .f32 0x00000000#32) (ix2 k d)
      = ∑ r : Fin 2048, A (ix2 r k) * B (ix2 r d) := by
  rw [Ideal.matmul_constant_zero_apply,
    ← Equiv.sum_comp (contrEquiv1 dot_S2048x1024_S2048x256_S1024x256_0_0_1_1_n_n 2048 rfl rfl).symm]
  refine Finset.sum_congr rfl fun r _ => ?_
  have c := contrEquiv1_symm_val dot_S2048x1024_S2048x256_S1024x256_0_0_1_1_n_n 2048 rfl rfl r
  have hl : dot_S2048x1024_S2048x256_S1024x256_0_0_1_1_n_n.lhsIdx (ix2 k d)
      ((contrEquiv1 dot_S2048x1024_S2048x256_S1024x256_0_0_1_1_n_n 2048 rfl rfl).symm r) = ix2 r k := by
    funext ax; apply Fin.ext
    match ax with
    | ⟨0, _⟩ =>
      exact (DotDims.lhsIdx_val_of_single dot_S2048x1024_S2048x256_S1024x256_0_0_1_1_n_n rfl _ _).trans c
    | ⟨1, _⟩ => rfl
  have hr : dot_S2048x1024_S2048x256_S1024x256_0_0_1_1_n_n.rhsIdx (ix2 k d)
      ((contrEquiv1 dot_S2048x1024_S2048x256_S1024x256_0_0_1_1_n_n 2048 rfl rfl).symm r) = ix2 r d := by
    funext ax; apply Fin.ext
    match ax with
    | ⟨0, _⟩ =>
      exact (DotDims.rhsIdx_val_of_single dot_S2048x1024_S2048x256_S1024x256_0_0_1_1_n_n rfl _ _).trans c
    | ⟨1, _⟩ => rfl
  rw [hl, hr]

/-! ## The stored values -/

/-- The two clearing stores hold zero at every index. -/
theorem pay1_apply (j : S1024x256.Idx) : k0_pay1 (F := Ideal) j = 0 := by
  unfold k0_pay1
  rw [shapeCast_self]
  exact Ideal.ofBits_zero_f32

theorem pay2_apply (j : S1x1024.Idx) : k0_pay2 (F := Ideal) j = 0 := by
  unfold k0_pay2
  rw [shapeCast_self]
  exact Ideal.ofBits_zero_f32

/-- THE TILE'S CLASS SUMS: at (k, d) the accumulator's entry plus the sum, over the tile's rows whose label read as a
    signed integer is k, of the row's entry in column d. -/
theorem pay4_apply (x0 : Vec Ideal S2048x256 .f32) (x1 : Vec Ideal S2048x1 .i32) (acc : Vec Ideal S1024x256 .f32)
    (k : Fin 1024) (d : Fin 256) :
    k0_pay4 (F := Ideal) x0 x1 acc (ix2 k d)
      = acc (ix2 k d) + ∑ r : Fin 2048, (if (x1 (ix2 r 0)).toInt = (k.val : Int) then x0 (ix2 r d) else 0) := by
  unfold k0_pay4
  show shapeCast S1024x256 (addf acc (FloatOps.matmul dot_S2048x1024_S2048x256_S1024x256_0_0_1_1_n_n none
      (truncf .bf16 (k0_pay3 (F := Ideal) x1) _) (truncf .bf16 x0 _)
      (constant S1024x256 .f32 0x00000000#32))) _ (ix2 k d) = _
  rw [shapeCast_self]
  show acc (ix2 k d) + FloatOps.matmul dot_S2048x1024_S2048x256_S1024x256_0_0_1_1_n_n none
      (truncf .bf16 (k0_pay3 (F := Ideal) x1) _) (truncf .bf16 x0 _)
      (constant S1024x256 .f32 0x00000000#32) (ix2 k d) = _
  rw [matmul_rows]
  refine congrArg (acc (ix2 k d) + ·) ?_
  refine Finset.sum_congr rfl fun r _ => ?_
  -- a change of format is the identity on extended reals: the factors are the indicator and the feature entry
  show k0_pay3 (F := Ideal) x1 (ix2 r k) * x0 (ix2 r d) = _
  rw [pay3_apply]
  by_cases h : (x1 (ix2 r 0)).toInt = (k.val : Int)
  · rw [if_pos h, if_pos h, one_mul]
  · rw [if_neg h, if_neg h, zero_mul]

/-- THE TILE'S CLASS COUNTS: at (0, k) the accumulator's entry plus the number of the tile's rows labelled k. -/
theorem pay5_apply (x1 : Vec Ideal S2048x1 .i32) (acc : Vec Ideal S1x1024 .f32) (k : Fin 1024) :
    k0_pay5 (F := Ideal) x1 acc (ix2 0 k)
      = acc (ix2 0 k) + ∑ r : Fin 2048, (if (x1 (ix2 r 0)).toInt = (k.val : Int) then (1 : EReal) else 0) := by
  unfold k0_pay5
  show shapeCast S1x1024 (addf acc (shapeCast S1x1024
      (multiReduction .add [0] S1024 (k0_pay3 (F := Ideal) x1) 0x00000000#32 _ _ _) _)) _ (ix2 0 k) = _
  rw [shapeCast_self]
  show acc (ix2 0 k) + shapeCast S1x1024
      (multiReduction .add [0] S1024 (k0_pay3 (F := Ideal) x1) 0x00000000#32 _ _ _) _ (ix2 0 k) = _
  rw [shapeCast_a_1a_apply]
  refine congrArg (acc (ix2 0 k) + ·) ?_
  -- the sum over the row axis, read as a sum over the 2048 rows of the indicator at (r, k)
  refine (Ideal.multiReduction_add_single (k0_pay3 (F := Ideal) x1) 0x00000000#32 _ _ _ (ix1 k)).trans ?_
  show ∑ r : Fin 2048, _ = _
  refine Finset.sum_congr rfl fun r _ => ?_
  rw [lift_row, pay3_apply]

/-- The last step's copies: the accumulators under a leading unit axis. -/
theorem pay6_apply (v : Vec Ideal S1024x256 .f32) (k : Fin 1024) (d : Fin 256) :
    k0_pay6 (F := Ideal) v (ix3 0 k d) = v (ix2 k d) :=
  shapeCast_ab_1ab_apply v _ 0 k d

theorem pay7_apply (v : Vec Ideal S1x1024 .f32) (k : Fin 1024) :
    k0_pay7 (F := Ideal) v (ix3 0 0 k) = v (ix2 0 k) :=
  shapeCast_ab_1ab_apply v _ 0 0 k

end Cert.KernelIdeal.Pay

end
-- ==== Proof.Blocks.lean ====
/-
  The accumulation over the grid, read as values.

  The grid has 128 points; point t is step t mod 64 of core t / 64 and holds tile t: rows 2048 t … 2048 t + 2047 of
  the feature array and of the label column. Write T(t) for the tile's class sums (at (k, d): the sum, over the
  tile's rows labelled k, of the row's entry in column d) and N(t) for its class counts. A core's first step leaves
  0 + T(t) and 0 + N(t) in the two carried accumulators, every later step adds T(t) and N(t) to what the step
  before left, so after point t the accumulators hold the sums of T and of N over the points 64 (t / 64) … t of t's
  own core. The last step of a core copies both into the core's output block, so output block c holds the sums over
  the 64 points of core c, and the two result arrays, block by block, hold exactly those.
-/
import proofs.«413044_j53850299957289_3_alg».proof.Proof.Pieces
import proofs.«413044_j53850299957289_3_alg».proof.Proof.Payload
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- The feature array and the label column as the region finds them, and the tile of each at a grid point. -/
abbrev feat (c : Dev nD) : Vec Ideal S262144x256 .f32 := V m c main_arg0
abbrev lcol (c : Dev nD) : Vec Ideal S262144x1 .i32 := V m c main_v0
abbrev xblk (c : Dev nD) (t : Fin cfg0.N) : Vec Ideal S2048x256 .f32 := iblk m c 0 t
abbrev lblk (c : Dev nD) (t : Fin cfg0.N) : Vec Ideal S2048x1 .i32 := iblk m c 1 t

theorem N128 : cfg0.N = 128 := N_0

/-- Row r of tile t in the whole arrays. -/
def row (t : Fin cfg0.N) (r : Fin 2048) : Fin 262144 :=
  ⟨2048 * t.val + r.val, by have := t.isLt; have := N128; have := r.isLt; omega⟩

/-- The two input windows' block index at point t is (t, 0): decided over the grid. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A tile's entry is the array's entry at the tile's row. -/
theorem xblk_apply (c : Dev nD) (t : Fin cfg0.N) (r : Fin 2048) (d : Fin 256) :
    xblk m c t (ix2 r d) = feat m c (ix2 (row t r) d) := by
  obtain ⟨e0, e1, -, -⟩ := in_index t
  show iblk m c 0 t (ix2 r d) = _
  unfold iblk
  rw [View.read_apply]
  show V m c main_arg0 (((cfg0.win 0).blk t).view.emb (ix2 r d)) = V m c main_arg0 (ix2 (row t r) d)
  congr 1
  funext a; apply Fin.ext
  match a with
  | ⟨0, _⟩ => show win0_0.index t (0 : Fin 2) * 2048 + 1 * r.val = 2048 * t.val + r.val; rw [e0]; omega
  | ⟨1, _⟩ => show win0_0.index t (1 : Fin 2) * 256 + 1 * d.val = d.val; rw [e1]; omega

theorem lblk_apply (c : Dev nD) (t : Fin cfg0.N) (r : Fin 2048) :
    lblk m c t (ix2 r 0) = lcol m c (ix2 (row t r) 0) := by
  obtain ⟨-, -, e0, e1⟩ := in_index t
  show iblk m c 1 t (ix2 r 0) = _
  unfold iblk
  rw [View.read_apply]
  show V m c main_v0 (((cfg0.win 1).blk t).view.emb (ix2 r 0)) = V m c main_v0 (ix2 (row t r) 0)
  congr 1
  funext a; apply Fin.ext
  match a with
  | ⟨0, _⟩ => show win0_1.index t (0 : Fin 2) * 2048 + 1 * r.val = 2048 * t.val + r.val; rw [e0]; omega
  | ⟨1, _⟩ => show win0_1.index t (1 : Fin 2) * 1 + 1 * (0 : Fin 1).val = (0 : Fin 1).val; rw [e1]; rfl

/-- T(t) at (k, d) and N(t) at k, over the tile. -/
def tileSum (c : Dev nD) (t : Fin cfg0.N) (k : Fin 1024) (d : Fin 256) : EReal :=
  ∑ r : Fin 2048, (if (lblk m c t (ix2 r 0)).toInt = (k.val : Int) then xblk m c t (ix2 r d) else 0)
def tileCnt (c : Dev nD) (t : Fin cfg0.N) (k : Fin 1024) : EReal :=
  ∑ r : Fin 2048, (if (lblk m c t (ix2 r 0)).toInt = (k.val : Int) then (1 : EReal) else 0)

/-- What the carried accumulators hold after point t. -/
abbrev sumsAfter (c : Dev nD) (n : ℕ) (h : n < cfg0.N) : Vec Ideal S1024x256 .f32 := (outsAt0 m c n h).2.2.1
abbrev cntsAfter (c : Dev nD) (n : ℕ) (h : n < cfg0.N) : Vec Ideal S1x1024 .f32 := (outsAt0 m c n h).2.2.2

/-- A CORE'S FIRST STEP: 0 + T(t) and 0 + N(t). -/
theorem first_step (c : Dev nD) (t : Fin cfg0.N) (h0 : t.val % 64 = 0) (k : Fin 1024) (d : Fin 256) :
    sumsAfter m c t.val t.isLt (ix2 k d) = tileSum m c t k d ∧ cntsAfter m c t.val t.isLt (ix2 0 k) = tileCnt m c t k := by
  have h1 : ¬t.val % 64 = 63 := by omega
  have hA := outsAt0_A m c t h0 h1
  have hc0 : cond0_0 (grid0.coords t) := (hcond0_0 t).mpr h0
  have hc1 : ¬cond0_1 (grid0.coords t) := fun h => h1 ((hcond0_1 t).mp h)
  constructor
  · show (outsAt0 m c t.val t.isLt).2.2.1 (ix2 k d) = _
    rw [hA]; dsimp only
    refine (congrFun (Pieces.sums_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)) (ix2 k d)).trans ?_
    refine (Pay.pay4_apply (iblk m c 0 t) (iblk m c 1 t) (k0_pay1 (F := Ideal)) k d).trans ?_
    rw [Pay.pay1_apply, zero_add]
    rfl
  · show (outsAt0 m c t.val t.isLt).2.2.2 (ix2 0 k) = _
    rw [hA]; dsimp only
    refine (congrFun (Pieces.counts_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)) (ix2 0 k)).trans ?_
    refine (Pay.pay5_apply (iblk m c 1 t) (k0_pay2 (F := Ideal)) k).trans ?_
    rw [Pay.pay2_apply, zero_add]
    rfl

/-- EVERY LATER STEP of a core: T(t) and N(t) added to what the step before left. -/
theorem later_step (c : Dev nD) (t : Fin cfg0.N) (h0 : ¬t.val % 64 = 0) (k : Fin 1024) (d : Fin 256) :
    sumsAfter m c t.val t.isLt (ix2 k d)
        = sumsAfter m c (t.val - 1) (Nat.lt_of_le_of_lt (Nat.sub_le _ _) t.isLt) (ix2 k d) + tileSum m c t k d
      ∧ cntsAfter m c t.val t.isLt (ix2 0 k)
        = cntsAfter m c (t.val - 1) (Nat.lt_of_le_of_lt (Nat.sub_le _ _) t.isLt) (ix2 0 k) + tileCnt m c t k := by
  have hc0 : ¬cond0_0 (grid0.coords t) := fun h => h0 ((hcond0_0 t).mp h)
  by_cases h1 : t.val % 64 = 63
  · have hC := outsAt0_C m c t h0 h1
    have hc1 : cond0_1 (grid0.coords t) := (hcond0_1 t).mpr h1
    constructor
    · show (outsAt0 m c t.val t.isLt).2.2.1 (ix2 k d) = _
      rw [hC]; dsimp only
      refine (congrFun (Pieces.sums_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)
        (outsAt0 m c (t.val - 1) (Nat.lt_of_le_of_lt (Nat.sub_le _ _) t.isLt)).2.2.1
        (outsAt0 m c (t.val - 1) (Nat.lt_of_le_of_lt (Nat.sub_le _ _) t.isLt)).2.2.2) (ix2 k d)).trans ?_
      exact Pay.pay4_apply (iblk m c 0 t) (iblk m c 1 t) _ k d
    · show (outsAt0 m c t.val t.isLt).2.2.2 (ix2 0 k) = _
      rw [hC]; dsimp only
      refine (congrFun (Pieces.counts_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)
        (outsAt0 m c (t.val - 1) (Nat.lt_of_le_of_lt (Nat.sub_le _ _) t.isLt)).2.2.1
        (outsAt0 m c (t.val - 1) (Nat.lt_of_le_of_lt (Nat.sub_le _ _) t.isLt)).2.2.2) (ix2 0 k)).trans ?_
      exact Pay.pay5_apply (iblk m c 1 t) _ k
  · have hB := outsAt0_B m c t h0 h1
    have hc1 : ¬cond0_1 (grid0.coords t) := fun h => h1 ((hcond0_1 t).mp h)
    constructor
    · show (outsAt0 m c t.val t.isLt).2.2.1 (ix2 k d) = _
      rw [hB]; dsimp only
      refine (congrFun (Pieces.sums_mid (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)
        (outsAt0 m c (t.val - 1) (Nat.lt_of_le_of_lt (Nat.sub_le _ _) t.isLt)).2.2.1
        (outsAt0 m c (t.val - 1) (Nat.lt_of_le_of_lt (Nat.sub_le _ _) t.isLt)).2.2.2) (ix2 k d)).trans ?_
      exact Pay.pay4_apply (iblk m c 0 t) (iblk m c 1 t) _ k d
    · show (outsAt0 m c t.val t.isLt).2.2.2 (ix2 0 k) = _
      rw [hB]; dsimp only
      refine (congrFun (Pieces.counts_mid (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)
        (outsAt0 m c (t.val - 1) (Nat.lt_of_le_of_lt (Nat.sub_le _ _) t.isLt)).2.2.1
        (outsAt0 m c (t.val - 1) (Nat.lt_of_le_of_lt (Nat.sub_le _ _) t.isLt)).2.2.2) (ix2 0 k)).trans ?_
      exact Pay.pay5_apply (iblk m c 1 t) _ k

/-- A CORE'S LAST STEP also leaves, in the two output blocks, the accumulators as they stand after its update. -/
theorem last_step_blocks (c : Dev nD) (t : Fin cfg0.N) (h1 : t.val % 64 = 63) (k : Fin 1024) (d : Fin 256) :
    (outsAt0 m c t.val t.isLt).1 (ix3 0 k d) = sumsAfter m c t.val t.isLt (ix2 k d)
      ∧ (outsAt0 m c t.val t.isLt).2.1 (ix3 0 0 k) = cntsAfter m c t.val t.isLt (ix2 0 k) := by
  have h0 : ¬t.val % 64 = 0 := by omega
  have hc0 : ¬cond0_0 (grid0.coords t) := fun h => h0 ((hcond0_0 t).mp h)
  have hc1 : cond0_1 (grid0.coords t) := (hcond0_1 t).mpr h1
  have hC := outsAt0_C m c t h0 h1
  constructor
  · show (outsAt0 m c t.val t.isLt).1 (ix3 0 k d) = (outsAt0 m c t.val t.isLt).2.2.1 (ix2 k d)
    rw [hC]; dsimp only
    refine (congrFun (Pieces.sums_block_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)
      (outsAt0 m c (t.val - 1) (Nat.lt_of_le_of_lt (Nat.sub_le _ _) t.isLt)).2.2.1
      (outsAt0 m c (t.val - 1) (Nat.lt_of_le_of_lt (Nat.sub_le _ _) t.isLt)).2.2.2) (ix3 0 k d)).trans ?_
    refine (Pay.pay6_apply _ k d).trans ?_
    exact (congrFun (Pieces.sums_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)
      (outsAt0 m c (t.val - 1) (Nat.lt_of_le_of_lt (Nat.sub_le _ _) t.isLt)).2.2.1
      (outsAt0 m c (t.val - 1) (Nat.lt_of_le_of_lt (Nat.sub_le _ _) t.isLt)).2.2.2) (ix2 k d)).symm
  · show (outsAt0 m c t.val t.isLt).2.1 (ix3 0 0 k) = (outsAt0 m c t.val t.isLt).2.2.2 (ix2 0 k)
    rw [hC]; dsimp only
    refine (congrFun (Pieces.counts_block_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)
      (outsAt0 m c (t.val - 1) (Nat.lt_of_le_of_lt (Nat.sub_le _ _) t.isLt)).2.2.1
      (outsAt0 m c (t.val - 1) (Nat.lt_of_le_of_lt (Nat.sub_le _ _) t.isLt)).2.2.2) (ix3 0 0 k)).trans ?_
    refine (Pay.pay7_apply _ k).trans ?_
    exact (congrFun (Pieces.counts_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)
      (outsAt0 m c (t.val - 1) (Nat.lt_of_le_of_lt (Nat.sub_le _ _) t.isLt)).2.2.1
      (outsAt0 m c (t.val - 1) (Nat.lt_of_le_of_lt (Nat.sub_le _ _) t.isLt)).2.2.2) (ix2 0 k)).symm

/-- T and N as functions of the point's number (zero past the grid), so that sums over ranges of points can be written. -/
def T (c : Dev nD) (k : Fin 1024) (d : Fin 256) (s : ℕ) : EReal := if h : s < cfg0.N then tileSum m c ⟨s, h⟩ k d else 0
def Nn (c : Dev nD) (k : Fin 1024) (s : ℕ) : EReal := if h : s < cfg0.N then tileCnt m c ⟨s, h⟩ k else 0

/-- THE ACCUMULATION: after point n the accumulators hold the sums of T and of N over the points of n's own core up to n. -/
theorem acc_inv (c : Dev nD) : ∀ (n : ℕ) (h : n < cfg0.N) (k : Fin 1024) (d : Fin 256),
    sumsAfter m c n h (ix2 k d) = ∑ s ∈ Finset.Ico (64 * (n / 64)) (n + 1), T m c k d s
      ∧ cntsAfter m c n h (ix2 0 k) = ∑ s ∈ Finset.Ico (64 * (n / 64)) (n + 1), Nn m c k s
  | 0, h, k, d => by
    obtain ⟨e1, e2⟩ := first_step m c ⟨0, h⟩ (Nat.zero_mod 64) k d
    constructor
    · refine e1.trans ?_
      rw [show 64 * (0 / 64) = 0 from rfl, Finset.sum_Ico_succ_top (le_refl 0), Finset.Ico_self, Finset.sum_empty, zero_add]
      simp only [T, dif_pos h]
    · refine e2.trans ?_
      rw [show 64 * (0 / 64) = 0 from rfl, Finset.sum_Ico_succ_top (le_refl 0), Finset.Ico_self, Finset.sum_empty, zero_add]
      simp only [Nn, dif_pos h]
  | n + 1, h, k, d => by
    by_cases h0 : (n + 1) % 64 = 0
    · obtain ⟨e1, e2⟩ := first_step m c ⟨n + 1, h⟩ h0 k d
      have hlo : 64 * ((n + 1) / 64) = n + 1 := by omega
      constructor
      · refine e1.trans ?_
        rw [hlo, Finset.sum_Ico_succ_top (le_refl (n + 1)), Finset.Ico_self, Finset.sum_empty, zero_add]
        simp only [T, dif_pos h]
      · refine e2.trans ?_
        rw [hlo, Finset.sum_Ico_succ_top (le_refl (n + 1)), Finset.Ico_self, Finset.sum_empty, zero_add]
        simp only [Nn, dif_pos h]
    · obtain ⟨e1, e2⟩ := later_step m c ⟨n + 1, h⟩ h0 k d
      obtain ⟨i1, i2⟩ := acc_inv c n (Nat.lt_of_succ_lt h) k d
      have hlo : 64 * ((n + 1) / 64) = 64 * (n / 64) := by omega
      have hle : 64 * (n / 64) ≤ n + 1 := by omega
      constructor
      · refine e1.trans ?_
        rw [hlo, Finset.sum_Ico_succ_top hle]
        show sumsAfter m c n _ (ix2 k d) + _ = _
        rw [i1]
        simp only [T, dif_pos h]
      · refine e2.trans ?_
        rw [hlo, Finset.sum_Ico_succ_top hle]
        show cntsAfter m c n _ (ix2 0 k) + _ = _
        rw [i2]
        simp only [Nn, dif_pos h]

/-- The two output windows' block index at point t is (t / 64, 0, 0): decided over the grid. -/
theorem out_index : ∀ t : Fin cfg0.N, win0_2.index t (0 : Fin 3) = t.val / 64 ∧ win0_2.index t (1 : Fin 3) = 0
    ∧ win0_2.index t (2 : Fin 3) = 0 ∧ win0_3.index t (0 : Fin 3) = t.val / 64 ∧ win0_3.index t (1 : Fin 3) = 0
    ∧ win0_3.index t (2 : Fin 3) = 0 :=
  (by decide +kernel : ∀ t : Fin grid0.N, _)

/-- The sums of T and of N over the 64 points of core q. -/
def coreSum (c : Dev nD) (q : ℕ) (k : Fin 1024) (d : Fin 256) : EReal := ∑ s ∈ Finset.Ico (64 * q) (64 * q + 64), T m c k d s
def coreCnt (c : Dev nD) (q : ℕ) (k : Fin 1024) : EReal := ∑ s ∈ Finset.Ico (64 * q) (64 * q + 64), Nn m c k s

/-- What the two result arrays of the call end holding: block q is core q's sums, core q's counts. -/
def sumsArr (c : Dev nD) : S2x1024x256.Idx → EReal := fun i => coreSum m c (i 0).val (i 1) (i 2)
def cntsArr (c : Dev nD) : S2x1x1024.Idx → EReal := fun i => coreCnt m c (i 0).val (i 2)

/-- The output blocks a core's last step leaves, as functions of the block index. -/
theorem sums_block_fun (c : Dev nD) (t : Fin cfg0.N) (h1 : t.val % 64 = 63) :
    (outsAt0 m c t.val t.isLt).1 = fun y : S1x1024x256.Idx => sumsAfter m c t.val t.isLt (ix2 (y 1) (y 2)) := by
  funext y
  obtain ⟨u, k, d, rfl⟩ : ∃ (u : Fin 1) (k : Fin 1024) (d : Fin 256), y = ix3 u k d := ⟨y 0, y 1, y 2, eq_ix3 y⟩
  obtain rfl : u = 0 := Subsingleton.elim _ _
  exact (last_step_blocks m c t h1 k d).1

theorem cnts_block_fun (c : Dev nD) (t : Fin cfg0.N) (h1 : t.val % 64 = 63) :
    (outsAt0 m c t.val t.isLt).2.1 = fun y : S1x1x1024.Idx => cntsAfter m c t.val t.isLt (ix2 0 (y 2)) := by
  funext y
  obtain ⟨u, v, k, rfl⟩ : ∃ (u : Fin 1) (v : Fin 1) (k : Fin 1024), y = ix3 u v k := ⟨y 0, y 1, y 2, eq_ix3 y⟩
  obtain rfl : u = 0 := Subsingleton.elim _ _
  obtain rfl : v = 0 := Subsingleton.elim _ _
  exact (last_step_blocks m c t h1 k (0 : Fin 256)).2

/-- WHAT A CORE'S LAST STEP WRITES BACK is that core's block of the arrays above. -/
theorem sums_flushed (c : Dev nD) (t : Fin cfg0.N) (hf : (cfg0.win 2).flush t = true) :
    (dats m 0 c).flushed 2 t = ((cfg0.win 2).blk t).view.read (Elt Ideal) (sumsArr m c) := by
  have h1 : t.val % 64 = 63 := (flush0_2 t).mp hf
  obtain ⟨e0, e1, e2, -, -, -⟩ := out_index t
  have hN := N128
  have ht := t.isLt
  show (cfg0.win 2).cut (grid0.coords t) ((dats m 0 c).after 2 t) = _
  rw [after0_2, sums_block_fun m c t h1]
  funext y
  show sumsAfter m c t.val t.isLt (ix2 (y 1) (y 2)) = sumsArr m c (((cfg0.win 2).blk t).view.emb y)
  have hy0 : (y 0).val < 1 := (y 0).isLt
  have q0 : ((((cfg0.win 2).blk t).view.emb y) 0).val = t.val / 64 := by
    show win0_2.index t (0 : Fin 3) * 1 + 1 * (y 0).val = t.val / 64
    rw [e0]; omega
  have q1 : ((((cfg0.win 2).blk t).view.emb y) 1 : Fin 1024) = (y 1 : Fin 1024) := Fin.ext (by
    show win0_2.index t (1 : Fin 3) * 1024 + 1 * (y 1).val = (y 1).val
    rw [e1]; omega)
  have q2 : ((((cfg0.win 2).blk t).view.emb y) 2 : Fin 256) = (y 2 : Fin 256) := Fin.ext (by
    show win0_2.index t (2 : Fin 3) * 256 + 1 * (y 2).val = (y 2).val
    rw [e2]; omega)
  refine ((acc_inv m c t.val t.isLt (y 1) (y 2)).1).trans ?_
  show _ = coreSum m c ((((cfg0.win 2).blk t).view.emb y) 0).val ((((cfg0.win 2).blk t).view.emb y) 1) ((((cfg0.win 2).blk t).view.emb y) 2)
  rw [q0, q1, q2]
  unfold coreSum
  rw [show t.val + 1 = 64 * (t.val / 64) + 64 from by omega]

theorem cnts_flushed (c : Dev nD) (t : Fin cfg0.N) (hf : (cfg0.win 3).flush t = true) :
    (dats m 0 c).flushed 3 t = ((cfg0.win 3).blk t).view.read (Elt Ideal) (cntsArr m c) := by
  have h1 : t.val % 64 = 63 := (flush0_3 t).mp hf
  obtain ⟨-, -, -, e0, e1, e2⟩ := out_index t
  have hN := N128
  have ht := t.isLt
  show (cfg0.win 3).cut (grid0.coords t) ((dats m 0 c).after 3 t) = _
  rw [after0_3, cnts_block_fun m c t h1]
  funext y
  show cntsAfter m c t.val t.isLt (ix2 0 (y 2)) = cntsArr m c (((cfg0.win 3).blk t).view.emb y)
  have hy0 : (y 0).val < 1 := (y 0).isLt
  have q0 : ((((cfg0.win 3).blk t).view.emb y) 0).val = t.val / 64 := by
    show win0_3.index t (0 : Fin 3) * 1 + 1 * (y 0).val = t.val / 64
    rw [e0]; omega
  have q2 : ((((cfg0.win 3).blk t).view.emb y) 2 : Fin 1024) = (y 2 : Fin 1024) := Fin.ext (by
    show win0_3.index t (2 : Fin 3) * 1024 + 1 * (y 2).val = (y 2).val
    rw [e2]; omega)
  refine ((acc_inv m c t.val t.isLt (y 2) (0 : Fin 256)).2).trans ?_
  show _ = coreCnt m c ((((cfg0.win 3).blk t).view.emb y) 0).val ((((cfg0.win 3).blk t).view.emb y) 2)
  rw [q0, q2]
  unfold coreCnt
  rw [show t.val + 1 = 64 * (t.val / 64) + 64 from by omega]

/-- Every index of each result array lies in the block some core's last step writes back. -/
theorem sums_cover (i : S2x1024x256.Idx) :
    ∃ t : Fin cfg0.N, (cfg0.win 2).flush t = true ∧ i ∈ ((cfg0.win 2).blk t).view.set := by
  have hN := N128
  have hi0 : (i 0).val < 2 := (i 0).isLt
  have hi1 : (i 1).val < 1024 := (i 1).isLt
  have hi2 : (i 2).val < 256 := (i 2).isLt
  have hlt : 64 * (i 0).val + 63 < cfg0.N := by omega
  obtain ⟨e0, e1, e2, -, -, -⟩ := out_index ⟨64 * (i 0).val + 63, hlt⟩
  refine ⟨⟨64 * (i 0).val + 63, hlt⟩, (flush0_2 _).mpr (by show (64 * (i 0).val + 63) % 64 = 63; omega), ?_⟩
  show i ∈ ((View.whole main_v1_0).slice (win0_2.rect ⟨64 * (i 0).val + 63, hlt⟩)).set
  rw [View.set_slice_whole, Rect.mem_set_unit]
  intro a
  match a with
  | ⟨0, _⟩ =>
    show win0_2.index ⟨64 * (i 0).val + 63, hlt⟩ (0 : Fin 3) * 1 ≤ (i 0).val ∧ (i 0).val < win0_2.index ⟨64 * (i 0).val + 63, hlt⟩ (0 : Fin 3) * 1 + 1
    rw [e0]; show (64 * (i 0).val + 63) / 64 * 1 ≤ (i 0).val ∧ (i 0).val < (64 * (i 0).val + 63) / 64 * 1 + 1; omega
  | ⟨1, _⟩ =>
    show win0_2.index ⟨64 * (i 0).val + 63, hlt⟩ (1 : Fin 3) * 1024 ≤ (i 1).val ∧ (i 1).val < win0_2.index ⟨64 * (i 0).val + 63, hlt⟩ (1 : Fin 3) * 1024 + 1024
    rw [e1]; omega
  | ⟨2, _⟩ =>
    show win0_2.index ⟨64 * (i 0).val + 63, hlt⟩ (2 : Fin 3) * 256 ≤ (i 2).val ∧ (i 2).val < win0_2.index ⟨64 * (i 0).val + 63, hlt⟩ (2 : Fin 3) * 256 + 256
    rw [e2]; omega

theorem cnts_cover (i : S2x1x1024.Idx) :
    ∃ t : Fin cfg0.N, (cfg0.win 3).flush t = true ∧ i ∈ ((cfg0.win 3).blk t).view.set := by
  have hN := N128
  have hi0 : (i 0).val < 2 := (i 0).isLt
  have hi1 : (i 1).val < 1 := (i 1).isLt
  have hi2 : (i 2).val < 1024 := (i 2).isLt
  have hlt : 64 * (i 0).val + 63 < cfg0.N := by omega
  obtain ⟨-, -, -, e0, e1, e2⟩ := out_index ⟨64 * (i 0).val + 63, hlt⟩
  refine ⟨⟨64 * (i 0).val + 63, hlt⟩, (flush0_3 _).mpr (by show (64 * (i 0).val + 63) % 64 = 63; omega), ?_⟩
  show i ∈ ((View.whole main_v1_1).slice (win0_3.rect ⟨64 * (i 0).val + 63, hlt⟩)).set
  rw [View.set_slice_whole, Rect.mem_set_unit]
  intro a
  match a with
  | ⟨0, _⟩ =>
    show win0_3.index ⟨64 * (i 0).val + 63, hlt⟩ (0 : Fin 3) * 1 ≤ (i 0).val ∧ (i 0).val < win0_3.index ⟨64 * (i 0).val + 63, hlt⟩ (0 : Fin 3) * 1 + 1
    rw [e0]; show (64 * (i 0).val + 63) / 64 * 1 ≤ (i 0).val ∧ (i 0).val < (64 * (i 0).val + 63) / 64 * 1 + 1; omega
  | ⟨1, _⟩ =>
    show win0_3.index ⟨64 * (i 0).val + 63, hlt⟩ (1 : Fin 3) * 1 ≤ (i 1).val ∧ (i 1).val < win0_3.index ⟨64 * (i 0).val + 63, hlt⟩ (1 : Fin 3) * 1 + 1
    rw [e1]; omega
  | ⟨2, _⟩ =>
    show win0_3.index ⟨64 * (i 0).val + 63, hlt⟩ (2 : Fin 3) * 1024 ≤ (i 2).val ∧ (i 2).val < win0_3.index ⟨64 * (i 0).val + 63, hlt⟩ (2 : Fin 3) * 1024 + 1024
    rw [e2]; omega

/-- THE TWO RESULT ARRAYS OF THE CALL after the run. -/
theorem sums_final (c : Dev nD) : (dats m 0 c).arrAt 2 cfg0.N = sumsArr m c :=
  (dats m 0 c).arrAt_eq_of_cover 2 (sumsArr m c) (sums_flushed m c) sums_cover

theorem cnts_final (c : Dev nD) : (dats m 0 c).arrAt 3 cfg0.N = cntsArr m c :=
  (dats m 0 c).arrAt_eq_of_cover 3 (cntsArr m c) (cnts_flushed m c) cnts_cover

/-- T and N over the whole arrays: the tile's rows are rows 2048 s … 2048 s + 2047. -/
theorem T_rows (c : Dev nD) (k : Fin 1024) (d : Fin 256) (s : ℕ) (h : s < cfg0.N) :
    T m c k d s = ∑ r : Fin 2048, (if (lcol m c (ix2 (row ⟨s, h⟩ r) 0)).toInt = (k.val : Int)
      then feat m c (ix2 (row ⟨s, h⟩ r) d) else 0) := by
  simp only [T, dif_pos h, tileSum]
  exact Finset.sum_congr rfl fun r _ => by rw [lblk_apply, xblk_apply]

theorem Nn_rows (c : Dev nD) (k : Fin 1024) (s : ℕ) (h : s < cfg0.N) :
    Nn m c k s = ∑ r : Fin 2048, (if (lcol m c (ix2 (row ⟨s, h⟩ r) 0)).toInt = (k.val : Int) then (1 : EReal) else 0) := by
  simp only [Nn, dif_pos h, tileCnt]
  exact Finset.sum_congr rfl fun r _ => by rw [lblk_apply]

end Cert.KernelIdeal.Acc

end
-- ==== Proof.Finish.lean ====
/-
  The step both programs end with.

  Given the class sums (1000 × 256), the class counts (1000) and the prototypes (1000 × 256): a class is present when
  its count is positive; its mean is its sum divided by max(count, 1); the updated prototype is 0.9 · prototype +
  0.1 · mean (the two factors as the f32 words both programs print); and the result keeps the old prototype for an
  absent class. One function of its three arguments, written with the host operations both programs apply, so that
  two results are equal as soon as their sums and counts are.
-/
import Idealize.ShloMosaic.PureOps

noncomputable section

namespace Cert.Finish

open Idealize.ShloMosaic

abbrev Sc : Shape := ⟨0, ![]⟩
abbrev C : Shape := ⟨1, ![1000]⟩
abbrev Cx1 : Shape := ⟨2, ![1000, 1]⟩
abbrev CxD : Shape := ⟨2, ![1000, 256]⟩

variable {F : FTy → Type} [FloatOps F]

def finish (sums : FVec F CxD .f32) (cnts : FVec F C .f32) (p : FVec F CxD .f32) : FVec F CxD .f32 :=
  select
    (broadcastInDim CxD ![0, 1] (by decide) (broadcastInDim Cx1 ![0] (by decide)
      (cmpf (F := F) .ogt cnts (broadcastInDim C ![] (by decide) (constant (F := F) Sc .f32 0x00000000#32)))))
    (addf (mulf (broadcastInDim CxD ![] (by decide) (constant (F := F) Sc .f32 0x3F666666#32)) p)
      (mulf (broadcastInDim CxD ![] (by decide) (constant (F := F) Sc .f32 0x3DCCCCCD#32))
        (Host.divf sums (broadcastInDim CxD ![0, 1] (by decide) (broadcastInDim Cx1 ![0] (by decide)
          (maximumf cnts (broadcastInDim C ![] (by decide) (constant (F := F) Sc .f32 0x3F800000#32))))))))
    p

end Cert.Finish

end
-- ==== Proof.Tail.lean ====
/-
  The host operations after the call, read as values.

  After the call the program adds the two cores' blocks of each result array, keeps the first 1000 classes, and ends
  with the closing step it shares with the reference. So its result is that closing step of: the merged sums (at
  (k, d): core 0's entry plus core 1's entry of class k), the merged counts, and the prototypes as launched.
-/
import proofs.«413044_j53850299957289_3_alg».proof.Proof.Blocks
import proofs.«413044_j53850299957289_3_alg».proof.Proof.Finish
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Tail

open Cert.KernelIdeal Cert.KernelIdeal.Gen Cert.KernelIdeal.Acc

/-- The two cores' blocks of the sums array added, the first 1000 classes kept; the same for the counts. -/
def mergeSums {F : FTy → Type} [FloatOps F] (a : FVec F S2x1024x256 .f32) : FVec F S1000x256 .f32 :=
  extractStridedSlice S1000x256 ![0, 0]
    (addf (shapeCast S1024x256 (extractStridedSlice S1x1024x256 ![0, 0, 0] a slices_S2x1024x256_S1x1024x256_0_0_0) shapeCasts_S1x1024x256_S1024x256)
      (shapeCast S1024x256 (extractStridedSlice S1x1024x256 ![1, 0, 0] a slices_S2x1024x256_S1x1024x256_1_0_0) shapeCasts_S1x1024x256_S1024x256))
    slices_S1024x256_S1000x256_0_0

def mergeCnts {F : FTy → Type} [FloatOps F] (b : FVec F S2x1x1024 .f32) : FVec F S1000 .f32 :=
  extractStridedSlice S1000 ![0]
    (addf (shapeCast S1024 (extractStridedSlice S1x1x1024 ![0, 0, 0] b slices_S2x1x1024_S1x1x1024_0_0_0) shapeCasts_S1x1x1024_S1024)
      (shapeCast S1024 (extractStridedSlice S1x1x1024 ![1, 0, 0] b slices_S2x1x1024_S1x1x1024_1_0_0) shapeCasts_S1x1x1024_S1024))
    slices_S1024_S1000_0

variable (m : (ℓ : Loc nD τ sig) → Buf (Elt Ideal) ℓ)

set_option maxHeartbeats 4000000 in
/-- THE PROGRAM'S RESULT after the host operations that follow the call. -/
theorem tail_value (c : Dev nD) :
    Pipeline.afterTail₀ cfgs (dats m) 0 (V0 m) [hostOps1, hostOps1_1] c main_v27
      = Cert.Finish.finish (F := Ideal) (mergeSums (sumsArr m c)) (mergeCnts (cntsArr m c)) (m ((c : Thread nD τ).loc main_arg2)) := by
  have eA : Pipeline.withArrays (cfgs 0).spec c (V0 m c) (fun w => (dats m 0 c).arrAt w (cfgs 0).N) (Proc.tc.devRef main_v1_0)
      = sumsArr m c :=
    (Pipeline.withArrays_arr spec0 launch0.win.arr_inj c (V0 m c) (fun w => (dats m 0 c).arrAt w cfg0.N) 2).trans (sums_final m c)
  have eB : Pipeline.withArrays (cfgs 0).spec c (V0 m c) (fun w => (dats m 0 c).arrAt w (cfgs 0).N) (Proc.tc.devRef main_v1_1)
      = cntsArr m c :=
    (Pipeline.withArrays_arr spec0 launch0.win.arr_inj c (V0 m c) (fun w => (dats m 0 c).arrAt w cfg0.N) 3).trans (cnts_final m c)
  have eP : Pipeline.withArrays (cfgs 0).spec c (V0 m c) (fun w => (dats m 0 c).arrAt w (cfgs 0).N) (Proc.tc.devRef main_arg2)
      = m ((c : Thread nD τ).loc main_arg2) :=
    (Pipeline.withArrays_of_ne spec0 c (V0 m c) _ main_arg2 (by exact (by decide : ∀ w, Pipeline.arrRef spec0 w ≠ main_arg2))).trans
      (V_main_arg2 m c)
  unfold Pipeline.afterTail₀
  simp only [hostOps1, hostOps1_1, List.flatten_cons, List.flatten_nil, List.append_nil, List.cons_append, List.nil_append]
  after_results_simp
  rw [eA, eB, eP]
  simp only [TRef.ofBuf, TRef.toBuf, cast_eq]
  rfl

/-- The merged sums at (k, d): core 0's entry plus core 1's entry of class k. -/
theorem mergeSums_apply (a : FVec Ideal S2x1024x256 .f32) (k : Fin 1000) (d : Fin 256) :
    mergeSums a (ix2 k d)
      = a (ix3 (0 : Fin 2) (⟨k.val, by have := k.isLt; omega⟩ : Fin 1024) d) + a (ix3 (1 : Fin 2) (⟨k.val, by have := k.isLt; omega⟩ : Fin 1024) d) := by
  unfold mergeSums
  refine (extractStridedSlice_apply _ _ _ (ix2 k d) (ix2 (⟨k.val, by have := k.isLt; omega⟩ : Fin 1024) d) (fun a => by
    match a with
    | ⟨0, _⟩ => show k.val = 0 + k.val; omega
    | ⟨1, _⟩ => show d.val = 0 + d.val; omega)).trans ?_
  rw [addf_apply, shapeCast_1ab_ab_apply, shapeCast_1ab_ab_apply]
  congr 1
  · exact extractStridedSlice_apply _ _ _ _ (ix3 (0 : Fin 2) (⟨k.val, by have := k.isLt; omega⟩ : Fin 1024) d) (fun a => by
      match a with
      | ⟨0, _⟩ => rfl
      | ⟨1, _⟩ => show k.val = 0 + k.val; omega
      | ⟨2, _⟩ => show d.val = 0 + d.val; omega)
  · exact extractStridedSlice_apply _ _ _ _ (ix3 (1 : Fin 2) (⟨k.val, by have := k.isLt; omega⟩ : Fin 1024) d) (fun a => by
      match a with
      | ⟨0, _⟩ => rfl
      | ⟨1, _⟩ => show k.val = 0 + k.val; omega
      | ⟨2, _⟩ => show d.val = 0 + d.val; omega)

/-- The merged counts at k. -/
theorem mergeCnts_apply (b : FVec Ideal S2x1x1024 .f32) (k : Fin 1000) :
    mergeCnts b (ix1 k)
      = b (ix3 (0 : Fin 2) (0 : Fin 1) (⟨k.val, by have := k.isLt; omega⟩ : Fin 1024)) + b (ix3 (1 : Fin 2) (0 : Fin 1) (⟨k.val, by have := k.isLt; omega⟩ : Fin 1024)) := by
  unfold mergeCnts
  refine (extractStridedSlice_apply _ _ _ (ix1 k) (ix1 (⟨k.val, by have := k.isLt; omega⟩ : Fin 1024)) (fun a => by
    match a with
    | ⟨0, _⟩ => show k.val = 0 + k.val; omega)).trans ?_
  rw [addf_apply]
  congr 1
  · refine (shapeCast_apply _ _ (ix1 (⟨k.val, by have := k.isLt; omega⟩ : Fin 1024)) (ix3 (0 : Fin 1) (0 : Fin 1) (⟨k.val, by have := k.isLt; omega⟩ : Fin 1024)) (by
      rw [Shape.rowMajor_val_three, Shape.rowMajor_val_one]; show (0 * 1 + 0) * 1024 + k.val = k.val; omega)).trans ?_
    exact extractStridedSlice_apply _ _ _ _ (ix3 (0 : Fin 2) (0 : Fin 1) (⟨k.val, by have := k.isLt; omega⟩ : Fin 1024)) (fun a => by
      match a with
      | ⟨0, _⟩ => rfl
      | ⟨1, _⟩ => rfl
      | ⟨2, _⟩ => show k.val = 0 + k.val; omega)
  · refine (shapeCast_apply _ _ (ix1 (⟨k.val, by have := k.isLt; omega⟩ : Fin 1024)) (ix3 (0 : Fin 1) (0 : Fin 1) (⟨k.val, by have := k.isLt; omega⟩ : Fin 1024)) (by
      rw [Shape.rowMajor_val_three, Shape.rowMajor_val_one]; show (0 * 1 + 0) * 1024 + k.val = k.val; omega)).trans ?_
    exact extractStridedSlice_apply _ _ _ _ (ix3 (1 : Fin 2) (0 : Fin 1) (⟨k.val, by have := k.isLt; omega⟩ : Fin 1024)) (fun a => by
      match a with
      | ⟨0, _⟩ => rfl
      | ⟨1, _⟩ => rfl
      | ⟨2, _⟩ => show k.val = 0 + k.val; omega)

end Cert.KernelIdeal.Tail

end
-- ==== Proof.Tiles.lean ====
/-
  Summing over an array's rows tile by tile.

  An array of 262144 rows is cut into 128 tiles of 2048 consecutive rows: row r of tile s is row 2048 s + r. A sum over
  all rows, of values in any commutative monoid, is the sum over the tiles of the sums over each tile's rows; and a
  sum over the 128 tiles is the sum over the first 64 plus the sum over the last 64.
-/
import Mathlib.Algebra.BigOperators.Fin
import Mathlib.Algebra.BigOperators.Intervals
import Mathlib.Data.Fintype.BigOperators
import Mathlib.Logic.Equiv.Fin.Basic

open scoped BigOperators

namespace Cert.Tiles

/-- The sum over the tiles of the sums over each tile's rows is the sum over all rows. -/
theorem sum_tiles {M : Type*} [AddCommMonoid M] (N : ℕ) (hN : N = 128) (g : Fin 262144 → M)
    (rowf : Fin N → Fin 2048 → Fin 262144) (hrow : ∀ s r, (rowf s r).val = 2048 * s.val + r.val) :
    ∑ s : Fin N, ∑ r : Fin 2048, g (rowf s r) = ∑ n : Fin 262144, g n := by
  subst hN
  refine (Fintype.sum_prod_type' (fun s r => g (rowf s r))).symm.trans ?_
  refine Fintype.sum_equiv (finProdFinEquiv.trans (finCongr (by rfl : 128 * 2048 = 262144))) _ _
    (fun x => congrArg g (Fin.ext ?_))
  rw [hrow]
  simp only [Equiv.trans_apply, finCongr_apply, Fin.coe_cast, finProdFinEquiv_apply_val]
  omega

/-- A function of the tile's number, summed over the tiles 0 … 63 and over the tiles 64 … 127, is its sum over all
    128 tiles taken as elements of `Fin N` (N = 128). -/
theorem sum_two_cores {M : Type*} [AddCommMonoid M] (N : ℕ) (hN : N = 128) (f : ℕ → M) :
    ∑ s ∈ Finset.Ico (64 * 0) (64 * 0 + 64), f s + ∑ s ∈ Finset.Ico (64 * 1) (64 * 1 + 64), f s = ∑ s : Fin N, f s.val := by
  subst hN
  rw [Finset.sum_Ico_consecutive f (by omega) (by omega), Fin.sum_univ_eq_sum_range f 128, ← Nat.Ico_zero_eq_range]

end Cert.Tiles
-- ==== Proof.Total.lean ====
/-
  The two cores' sums together are the sums over all rows.

  Core 0 takes the tiles 0 … 63 and core 1 the tiles 64 … 127, and tile s holds the rows 2048 s … 2048 s + 2047; so at
  (k, d) the two cores' class sums add up to the sum, over ALL rows labelled k, of the row's entry in column d, and
  the two cores' class counts to the number of all rows labelled k.
-/
import proofs.«413044_j53850299957289_3_alg».proof.Proof.Blocks
import proofs.«413044_j53850299957289_3_alg».proof.Proof.Tiles

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

theorem total_sums (c : Dev nD) (k : Fin 1024) (d : Fin 256) :
    coreSum m c 0 k d + coreSum m c 1 k d
      = ∑ n : Fin 262144, (if (lcol m c (ix2 n 0)).toInt = (k.val : Int) then feat m c (ix2 n d) else 0) := by
  unfold coreSum
  rw [Cert.Tiles.sum_two_cores cfg0.N N128 (T m c k d)]
  rw [← Cert.Tiles.sum_tiles cfg0.N N128
    (fun n => if (lcol m c (ix2 n 0)).toInt = (k.val : Int) then feat m c (ix2 n d) else 0) row (fun s r => rfl)]
  exact Finset.sum_congr rfl fun s _ => T_rows m c k d s.val s.isLt

theorem total_cnts (c : Dev nD) (k : Fin 1024) :
    coreCnt m c 0 k + coreCnt m c 1 k
      = ∑ n : Fin 262144, (if (lcol m c (ix2 n 0)).toInt = (k.val : Int) then (1 : EReal) else 0) := by
  unfold coreCnt
  rw [Cert.Tiles.sum_two_cores cfg0.N N128 (Nn m c k)]
  rw [← Cert.Tiles.sum_tiles cfg0.N N128
    (fun n => if (lcol m c (ix2 n 0)).toInt = (k.val : Int) then (1 : EReal) else 0) row (fun s r => rfl)]
  exact Finset.sum_congr rfl fun s _ => Nn_rows m c k s.val s.isLt

end Cert.KernelIdeal.Acc

end
-- ==== Proof.LibScatter.lean ====
/-
  An accumulating row scatter read at an index.

  A scatter whose index operand is a column of N signed 32-bit row numbers, whose updates are N rows (or N scalars)
  and whose body adds, lands update row n on operand row (idx n) when 0 ≤ idx n < C and drops it otherwise. At the
  ideal values (a float is an extended real, the sum exact and order-free) the result at row k is therefore the
  operand's entry plus the sum of the update rows whose index, read as a signed integer, is k. Stated for any
  dimension-numbers record whose lists have the values of that scatter, generically in the sizes and the format.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.LibScatter

open Idealize.ShloMosaic Idealize.ShloMosaic.ValueIdx

/-! ## Indices by their coordinates -/

/-- A rank-2 index whose two coordinates have the values of `a` and `b` is `ix2 a b`. -/
theorem idx2_eq_ix2 {n0 n1 : Nat} (f : (⟨2, ![n0, n1]⟩ : Shape).Idx) (a : Fin n0) (b : Fin n1)
    (h0 : (f 0).val = a.val) (h1 : (f 1).val = b.val) : f = ix2 a b := by
  funext c
  match c with
  | ⟨0, _⟩ => exact Fin.ext h0
  | ⟨1, _⟩ => exact Fin.ext h1

/-- A rank-1 index whose coordinate has the value of `a` is `ix1 a`. -/
theorem idx1_eq_ix1 {n0 : Nat} (f : (⟨1, ![n0]⟩ : Shape).Idx) (a : Fin n0)
    (h0 : (f 0).val = a.val) : f = ix1 a := by
  funext c
  match c with
  | ⟨0, _⟩ => exact Fin.ext h0

/-- A sum over a rank-1 index set is the sum over its coordinate. -/
theorem sum_idx1 {M : Type*} [AddCommMonoid M] {n0 : Nat} (f : (⟨1, ![n0]⟩ : Shape).Idx → M) :
    ∑ i, f i = ∑ a : Fin n0, f (ix1 a) :=
  (Equiv.sum_comp (idxEquiv1 (n := n0)).symm f).symm

/-! ## The row scatter: where an update index lands

The record's lists are the literals; only its well-formedness proof is a variable. Update axis 0 is the one scatter
axis and reads scatter-indices axis 0; the index vector's axis carries the single component. So the start index of
update (n, e') is read at (n, 0); on operand axis 0 the window coordinate is 0, on operand axis 1 the start is 0 and
the window coordinate is e'. -/

/-- The scatter-indices index an update index reads its one start component at: its row, column 0. -/
theorem siIdx_rows {C N D : Nat}
    (wf : ScatterDims.WF ⟨2, ![C, D]⟩ ⟨2, ![N, 1]⟩ ⟨2, ![N, D]⟩ [1] [0] [0] 1)
    (j : (⟨2, ![N, D]⟩ : Shape).Idx) (c : Fin 1) :
    (ScatterDims.mk (s := ⟨2, ![C, D]⟩) (si := ⟨2, ![N, 1]⟩) (u := ⟨2, ![N, D]⟩) [1] [0] [0] 1 wf).siIdx j c
      = ix2 (j 0) 0 := by
  funext b
  match b with
  | ⟨0, _⟩ =>
    unfold ScatterDims.siIdx
    simp only [Nat.zero_ne_one, ↓reduceDIte]
    unfold ScatterDims.siCoord
    apply Fin.ext
    simp only [Fin.coe_cast]
    rfl
  | ⟨1, _⟩ =>
    unfold ScatterDims.siIdx
    simp only [dite_true]
    apply Fin.ext
    have := c.isLt
    show c.val = 0
    omega

/-- On operand axis 0 the start is the signed index of the update's row. -/
theorem start_rows_0 {C N D : Nat}
    (wf : ScatterDims.WF ⟨2, ![C, D]⟩ ⟨2, ![N, 1]⟩ ⟨2, ![N, D]⟩ [1] [0] [0] 1)
    (idx : IVec ⟨2, ![N, 1]⟩ 32) (j : (⟨2, ![N, D]⟩ : Shape).Idx) :
    (ScatterDims.mk (s := ⟨2, ![C, D]⟩) (si := ⟨2, ![N, 1]⟩) (u := ⟨2, ![N, D]⟩) [1] [0] [0] 1 wf).start j idx 0
      = (idx (ix2 (j 0) 0)).toInt := by
  unfold ScatterDims.start
  simp only [List.mem_singleton, dite_true]
  exact congrArg (fun i => (idx i).toInt) (siIdx_rows wf j _)

/-- Operand axis 1 is not named by the index map: the start is 0 there. -/
theorem start_rows_1 {C N D : Nat}
    (wf : ScatterDims.WF ⟨2, ![C, D]⟩ ⟨2, ![N, 1]⟩ ⟨2, ![N, D]⟩ [1] [0] [0] 1)
    (idx : IVec ⟨2, ![N, 1]⟩ 32) (j : (⟨2, ![N, D]⟩ : Shape).Idx) :
    (ScatterDims.mk (s := ⟨2, ![C, D]⟩) (si := ⟨2, ![N, 1]⟩) (u := ⟨2, ![N, D]⟩) [1] [0] [0] 1 wf).start j idx 1
      = 0 := by
  unfold ScatterDims.start
  rw [dif_neg (show (1 : Fin 2) ∉ ([0] : List (Fin 2)) from by decide)]

/-- Operand axis 0 is inserted: the window coordinate is 0 there. -/
theorem window_rows_0 {C N D : Nat}
    (wf : ScatterDims.WF ⟨2, ![C, D]⟩ ⟨2, ![N, 1]⟩ ⟨2, ![N, D]⟩ [1] [0] [0] 1)
    (j : (⟨2, ![N, D]⟩ : Shape).Idx) :
    (ScatterDims.mk (s := ⟨2, ![C, D]⟩) (si := ⟨2, ![N, 1]⟩) (u := ⟨2, ![N, D]⟩) [1] [0] [0] 1 wf).window j 0
      = 0 := by
  unfold ScatterDims.window
  exact dif_neg (show (0 : Fin 2) ∉ (List.finRange 2).filter (· ∉ ([0] : List (Fin 2))) from by decide)

/-- Operand axis 1 is the one kept axis and takes update axis 1: the window coordinate is the update's column. -/
theorem window_rows_1 {C N D : Nat}
    (wf : ScatterDims.WF ⟨2, ![C, D]⟩ ⟨2, ![N, 1]⟩ ⟨2, ![N, D]⟩ [1] [0] [0] 1)
    (j : (⟨2, ![N, D]⟩ : Shape).Idx) :
    (ScatterDims.mk (s := ⟨2, ![C, D]⟩) (si := ⟨2, ![N, 1]⟩) (u := ⟨2, ![N, D]⟩) [1] [0] [0] 1 wf).window j 1
      = (j 1).val := by
  unfold ScatterDims.window
  refine (dif_pos (show (1 : Fin 2) ∈ (List.finRange 2).filter (· ∉ ([0] : List (Fin 2))) from by decide)).trans ?_
  rfl

/-- THE LANDING OF A ROW UPDATE. Update index j lands on operand element (k, e) exactly when the signed index of its
    row is k and its column is e: with t the signed index, the landing point is (t + 0, 0 + column) when
    0 ≤ t < C (the column is always in range), and there is none otherwise. -/
theorem resultIdx_rows_iff {C N D : Nat}
    (wf : ScatterDims.WF ⟨2, ![C, D]⟩ ⟨2, ![N, 1]⟩ ⟨2, ![N, D]⟩ [1] [0] [0] 1)
    (idx : IVec ⟨2, ![N, 1]⟩ 32) (j : (⟨2, ![N, D]⟩ : Shape).Idx) (k : Fin C) (e : Fin D) :
    (ScatterDims.mk (s := ⟨2, ![C, D]⟩) (si := ⟨2, ![N, 1]⟩) (u := ⟨2, ![N, D]⟩) [1] [0] [0] 1 wf).resultIdx? j idx
        = some (ix2 k e)
      ↔ (idx (ix2 (j 0) 0)).toInt = (k.val : Int) ∧ (j 1).val = e.val := by
  have hs0 := start_rows_0 wf idx j
  have hs1 := start_rows_1 wf idx j
  have hw0 := window_rows_0 wf j
  have hw1 := window_rows_1 wf j
  have hk : k.val < C := k.isLt
  have he : e.val < D := e.isLt
  unfold ScatterDims.resultIdx?
  generalize (idx (ix2 (j 0) 0)).toInt = t at hs0 ⊢
  split_ifs with h
  · -- in range on both axes: compare the landing point's coordinates with (k, e)
    have h0 := h 0
    have h1 := h 1
    rw [hs0, hw0] at h0
    rw [hs1, hw1] at h1
    constructor
    · intro heq
      have hf := Option.some.inj heq
      have e0 := congrArg (fun f => (f 0).val) hf
      have e1 := congrArg (fun f => (f 1).val) hf
      simp only [hs0, hw0, hs1, hw1] at e0 e1
      replace e0 : (t + ((0 : ℕ) : ℤ)).toNat = k.val := e0
      replace e1 : ((0 : ℤ) + (((j 1).val : ℕ) : ℤ)).toNat = e.val := e1
      omega
    · rintro ⟨ht, hj⟩
      refine congrArg some (idx2_eq_ix2 _ _ _ ?_ ?_)
      · simp only [hs0, hw0]
        omega
      · simp only [hs1, hw1]
        omega
  · -- out of range on some axis: nothing lands, and t = k with the column e would have been in range
    constructor
    · intro heq
      exact absurd heq (by simp)
    · rintro ⟨ht, hj⟩
      exfalso
      apply h
      have h0 : 0 ≤ (ScatterDims.mk (s := ⟨2, ![C, D]⟩) (si := ⟨2, ![N, 1]⟩) (u := ⟨2, ![N, D]⟩) [1] [0] [0] 1 wf).start j idx 0
            + (((ScatterDims.mk (s := ⟨2, ![C, D]⟩) (si := ⟨2, ![N, 1]⟩) (u := ⟨2, ![N, D]⟩) [1] [0] [0] 1 wf).window j 0 : ℕ) : ℤ)
          ∧ (ScatterDims.mk (s := ⟨2, ![C, D]⟩) (si := ⟨2, ![N, 1]⟩) (u := ⟨2, ![N, D]⟩) [1] [0] [0] 1 wf).start j idx 0
            + (((ScatterDims.mk (s := ⟨2, ![C, D]⟩) (si := ⟨2, ![N, 1]⟩) (u := ⟨2, ![N, D]⟩) [1] [0] [0] 1 wf).window j 0 : ℕ) : ℤ) < ((C : ℕ) : ℤ) := by
        rw [hs0, hw0]; omega
      have h1 : 0 ≤ (ScatterDims.mk (s := ⟨2, ![C, D]⟩) (si := ⟨2, ![N, 1]⟩) (u := ⟨2, ![N, D]⟩) [1] [0] [0] 1 wf).start j idx 1
            + (((ScatterDims.mk (s := ⟨2, ![C, D]⟩) (si := ⟨2, ![N, 1]⟩) (u := ⟨2, ![N, D]⟩) [1] [0] [0] 1 wf).window j 1 : ℕ) : ℤ)
          ∧ (ScatterDims.mk (s := ⟨2, ![C, D]⟩) (si := ⟨2, ![N, 1]⟩) (u := ⟨2, ![N, D]⟩) [1] [0] [0] 1 wf).start j idx 1
            + (((ScatterDims.mk (s := ⟨2, ![C, D]⟩) (si := ⟨2, ![N, 1]⟩) (u := ⟨2, ![N, D]⟩) [1] [0] [0] 1 wf).window j 1 : ℕ) : ℤ) < ((D : ℕ) : ℤ) := by
        rw [hs1, hw1]; omega
      intro a
      match a with
      | ⟨0, _⟩ => exact h0
      | ⟨1, _⟩ => exact h1

/-- ROWS OF A MATRIX. Operand C × D, indices N × 1, updates N × D; update axis 1 is the window axis, operand axis 0
    is inserted and is the axis the index names. The result at (k, e) is the operand's entry plus the sum over the
    update rows n whose index is k of the update's entry (n, e). -/
theorem scatterAdd_rows_apply {C N D : Nat} {φ : FTy}
    (d : ScatterDims ⟨2, ![C, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (x : FVec Ideal ⟨2, ![C, D]⟩ φ) (idx : IVec ⟨2, ![N, 1]⟩ 32) (upd : FVec Ideal ⟨2, ![N, D]⟩ φ)
    (k : Fin C) (e : Fin D) :
    Host.scatterAdd (F := Ideal) d x idx upd (ix2 k e)
      = x (ix2 k e) + ∑ n : Fin N, (if (idx (ix2 n 0)).toInt = (k.val : Int) then upd (ix2 n e) else 0) := by
  cases d with
  | mk uw iw sd iv wf =>
  simp only at huw hiw hsd hiv
  subst huw hiw hsd hiv
  unfold Host.scatterAdd
  rw [Ideal.hostScatterAdd_def]
  unfold Ideal.hostScatterAdd
  refine congrArg (fun t => x (ix2 k e) + t) ?_
  -- the filtered sum over update indices, as a double sum over (row, column) of an indicator
  rw [Finset.sum_filter, sum_idx2]
  refine Finset.sum_congr rfl fun n _ => ?_
  refine (Finset.sum_congr rfl fun b _ => if_congr (resultIdx_rows_iff wf idx (ix2 n b) k e) rfl rfl).trans ?_
  show (∑ b : Fin D, if (idx (ix2 n 0)).toInt = ((k.val : ℕ) : ℤ) ∧ b.val = e.val then upd (ix2 n b) else 0) = _
  -- row n contributes its column e when its index is k, and nothing otherwise
  by_cases hk : (idx (ix2 n 0)).toInt = ((k.val : ℕ) : ℤ)
  · simp only [hk, true_and, if_true, Fin.val_inj]
    rw [Finset.sum_ite_eq' Finset.univ e]
    simp only [Finset.mem_univ, if_true]
  · simp only [hk, false_and, if_false, Finset.sum_const_zero]

/-! ## The vector scatter: where an update index lands

The operand has the one axis 0, inserted and named by the index map; the updates have the one scatter axis 0 and no
window axis. The start of update n on operand axis 0 is its signed index, the window coordinate 0. -/

/-- The scatter-indices index an update index reads its one start component at: its position, column 0. -/
theorem siIdx_vec {C N : Nat}
    (wf : ScatterDims.WF ⟨1, ![C]⟩ ⟨2, ![N, 1]⟩ ⟨1, ![N]⟩ [] [0] [0] 1)
    (j : (⟨1, ![N]⟩ : Shape).Idx) (c : Fin 1) :
    (ScatterDims.mk (s := ⟨1, ![C]⟩) (si := ⟨2, ![N, 1]⟩) (u := ⟨1, ![N]⟩) [] [0] [0] 1 wf).siIdx j c
      = ix2 (j 0) 0 := by
  funext b
  match b with
  | ⟨0, _⟩ =>
    unfold ScatterDims.siIdx
    simp only [Nat.zero_ne_one, ↓reduceDIte]
    unfold ScatterDims.siCoord
    apply Fin.ext
    simp only [Fin.coe_cast]
    rfl
  | ⟨1, _⟩ =>
    unfold ScatterDims.siIdx
    simp only [dite_true]
    apply Fin.ext
    have := c.isLt
    show c.val = 0
    omega

/-- On the operand's axis the start is the signed index of the update's position. -/
theorem start_vec {C N : Nat}
    (wf : ScatterDims.WF ⟨1, ![C]⟩ ⟨2, ![N, 1]⟩ ⟨1, ![N]⟩ [] [0] [0] 1)
    (idx : IVec ⟨2, ![N, 1]⟩ 32) (j : (⟨1, ![N]⟩ : Shape).Idx) :
    (ScatterDims.mk (s := ⟨1, ![C]⟩) (si := ⟨2, ![N, 1]⟩) (u := ⟨1, ![N]⟩) [] [0] [0] 1 wf).start j idx 0
      = (idx (ix2 (j 0) 0)).toInt := by
  unfold ScatterDims.start
  simp only [List.mem_singleton, dite_true]
  exact congrArg (fun i => (idx i).toInt) (siIdx_vec wf j _)

/-- The operand's axis is inserted: the window coordinate is 0. -/
theorem window_vec {C N : Nat}
    (wf : ScatterDims.WF ⟨1, ![C]⟩ ⟨2, ![N, 1]⟩ ⟨1, ![N]⟩ [] [0] [0] 1)
    (j : (⟨1, ![N]⟩ : Shape).Idx) :
    (ScatterDims.mk (s := ⟨1, ![C]⟩) (si := ⟨2, ![N, 1]⟩) (u := ⟨1, ![N]⟩) [] [0] [0] 1 wf).window j 0
      = 0 := by
  unfold ScatterDims.window
  exact dif_neg (show (0 : Fin 1) ∉ (List.finRange 1).filter (· ∉ ([0] : List (Fin 1))) from by decide)

/-- THE LANDING OF A SCALAR UPDATE. Update index j lands on operand element k exactly when its signed index is k. -/
theorem resultIdx_vec_iff {C N : Nat}
    (wf : ScatterDims.WF ⟨1, ![C]⟩ ⟨2, ![N, 1]⟩ ⟨1, ![N]⟩ [] [0] [0] 1)
    (idx : IVec ⟨2, ![N, 1]⟩ 32) (j : (⟨1, ![N]⟩ : Shape).Idx) (k : Fin C) :
    (ScatterDims.mk (s := ⟨1, ![C]⟩) (si := ⟨2, ![N, 1]⟩) (u := ⟨1, ![N]⟩) [] [0] [0] 1 wf).resultIdx? j idx
        = some (ix1 k)
      ↔ (idx (ix2 (j 0) 0)).toInt = (k.val : Int) := by
  have hs0 := start_vec wf idx j
  have hw0 := window_vec wf j
  have hk : k.val < C := k.isLt
  unfold ScatterDims.resultIdx?
  generalize (idx (ix2 (j 0) 0)).toInt = t at hs0 ⊢
  split_ifs with h
  · have h0 := h 0
    rw [hs0, hw0] at h0
    constructor
    · intro heq
      have hf := Option.some.inj heq
      have e0 := congrArg (fun f => (f 0).val) hf
      simp only [hs0, hw0] at e0
      replace e0 : (t + ((0 : ℕ) : ℤ)).toNat = k.val := e0
      omega
    · intro ht
      refine congrArg some (idx1_eq_ix1 _ _ ?_)
      simp only [hs0, hw0]
      omega
  · constructor
    · intro heq
      exact absurd heq (by simp)
    · intro ht
      exfalso
      apply h
      have h0 : 0 ≤ (ScatterDims.mk (s := ⟨1, ![C]⟩) (si := ⟨2, ![N, 1]⟩) (u := ⟨1, ![N]⟩) [] [0] [0] 1 wf).start j idx 0
            + (((ScatterDims.mk (s := ⟨1, ![C]⟩) (si := ⟨2, ![N, 1]⟩) (u := ⟨1, ![N]⟩) [] [0] [0] 1 wf).window j 0 : ℕ) : ℤ)
          ∧ (ScatterDims.mk (s := ⟨1, ![C]⟩) (si := ⟨2, ![N, 1]⟩) (u := ⟨1, ![N]⟩) [] [0] [0] 1 wf).start j idx 0
            + (((ScatterDims.mk (s := ⟨1, ![C]⟩) (si := ⟨2, ![N, 1]⟩) (u := ⟨1, ![N]⟩) [] [0] [0] 1 wf).window j 0 : ℕ) : ℤ) < ((C : ℕ) : ℤ) := by
        rw [hs0, hw0]; omega
      intro a
      match a with
      | ⟨0, _⟩ => exact h0

/-- ENTRIES OF A VECTOR. Operand of length C, indices N × 1, updates of length N; no window axis. The result at k is
    the operand's entry plus the sum of the updates n whose index is k. -/
theorem scatterAdd_vec_apply {C N : Nat} {φ : FTy}
    (d : ScatterDims ⟨1, ![C]⟩ ⟨2, ![N, 1]⟩ ⟨1, ![N]⟩)
    (huw : d.updateWindowDims = []) (hiw : d.insertedWindowDims = [0])
    (hsd : d.scatterDimsToOperandDims = [0]) (hiv : d.indexVectorDim = 1)
    (x : FVec Ideal ⟨1, ![C]⟩ φ) (idx : IVec ⟨2, ![N, 1]⟩ 32) (upd : FVec Ideal ⟨1, ![N]⟩ φ)
    (k : Fin C) :
    Host.scatterAdd (F := Ideal) d x idx upd (ix1 k)
      = x (ix1 k) + ∑ n : Fin N, (if (idx (ix2 n 0)).toInt = (k.val : Int) then upd (ix1 n) else 0) := by
  cases d with
  | mk uw iw sd iv wf =>
  simp only at huw hiw hsd hiv
  subst huw hiw hsd hiv
  unfold Host.scatterAdd
  rw [Ideal.hostScatterAdd_def]
  unfold Ideal.hostScatterAdd
  refine congrArg (fun t => x (ix1 k) + t) ?_
  -- the filtered sum over update indices, as a sum over positions of an indicator
  rw [Finset.sum_filter, sum_idx1]
  exact Finset.sum_congr rfl fun n _ => if_congr (resultIdx_vec_iff wf idx (ix1 n) k) rfl rfl

end Cert.LibScatter

end
-- ==== Proof.RefValue.lean ====
/-
  The reference's two accumulating scatters, read at an index at the ideal values.

  The reference scatters the feature rows, and a vector of ones, into a zero array of 1000 classes by the label
  column. At class k (and column d) the first therefore holds the sum of the rows labelled k, the second the number
  of those rows: the zero operand adds nothing, the label column is the label vector under a trailing unit axis, and
  the ones are the extended real 1.
-/
import proofs.«413044_j53850299957289_3_alg».proof.Proof.RefRun
import proofs.«413044_j53850299957289_3_alg».proof.Proof.LibScatter
import Idealize.ShloMosaic.PureOps.Ideal
import Idealize.ShloMosaic.PureOps.Ideal.Laws
import Idealize.ShloMosaic.Lib.ValueIdx
import Idealize.ShloMosaic.Lib.Pipeline.Value
import Mathlib.Tactic.NormNum

noncomputable section

open scoped BigOperators

namespace Cert.ReferenceIdeal.RefValue

open Idealize.ShloMosaic Idealize.ShloMosaic.ValueIdx Cert.ReferenceIdeal Cert.ReferenceIdeal.Gen

/-- The label column: the label vector under a trailing unit axis reads, at (n, 0), the label of n. -/
theorem lblcol_apply (lbl : IVec S262144 32) (n : Fin 262144) :
    broadcastInDim S262144x1 ![0] bcast_S262144_S262144x1_0 lbl (ix2 n 0) = lbl (ix1 n) := by
  refine broadcastInDim_apply _ _ _ _ (ix1 n) ?_
  intro a
  match a with
  | ⟨0, _⟩ => exact (if_neg (show ¬ ((262144 : Nat) = 1) from by decide)).symm

/-- The word 0x3F800000 is the extended real 1. -/
theorem ofBits_one_f32 : Ideal.ofBits .f32 0x3F800000#32 = (1 : EReal) := by
  simp [Ideal.ofBits, Ideal.ieee, -EReal.coe_mul]; norm_num

/-- THE CLASS SUMS: at (k, d), the sum over the rows labelled k of the row's entry in column d. -/
theorem sums_ref_apply (lbl : IVec S262144 32) (feat : FVec Ideal S262144x256 .f32) (k : Fin 1000) (d : Fin 256) :
    Host.scatterAdd (F := Ideal) scatter_S1000x256_S262144x1_S262144x256_1_0_0_1
        (broadcastInDim S1000x256 ![] bcast_S_S1000x256 (constant (F := Ideal) S_ .f32 0x00000000#32))
        (broadcastInDim S262144x1 ![0] bcast_S262144_S262144x1_0 lbl) feat (ix2 k d)
      = ∑ n : Fin 262144, (if (lbl (ix1 n)).toInt = (k.val : Int) then feat (ix2 n d) else 0) := by
  -- the row scatter at (k, d): the operand's entry plus the sum of the rows whose index is k
  refine (Cert.LibScatter.scatterAdd_rows_apply _ rfl rfl rfl rfl _ _ _ k d).trans ?_
  -- the operand is the zero word everywhere
  have hx : broadcastInDim S1000x256 ![] bcast_S_S1000x256 (constant (F := Ideal) S_ .f32 0x00000000#32) (ix2 k d)
      = (0 : EReal) := Ideal.ofBits_zero_f32
  refine (congrArg (fun t => t + _) hx).trans ?_
  refine (zero_add _).trans ?_
  refine Finset.sum_congr rfl fun n _ => ?_
  rw [lblcol_apply]

/-- THE CLASS COUNTS: at k, the number of rows labelled k. -/
theorem cnts_ref_apply (lbl : IVec S262144 32) (k : Fin 1000) :
    Host.scatterAdd (F := Ideal) scatter_S1000_S262144x1_S262144_n_0_0_1
        (broadcastInDim S1000 ![] bcast_S_S1000 (constant (F := Ideal) S_ .f32 0x00000000#32))
        (broadcastInDim S262144x1 ![0] bcast_S262144_S262144x1_0 lbl)
        (broadcastInDim S262144 ![] bcast_S_S262144 (constant (F := Ideal) S_ .f32 0x3F800000#32)) (ix1 k)
      = ∑ n : Fin 262144, (if (lbl (ix1 n)).toInt = (k.val : Int) then (1 : EReal) else 0) := by
  -- the vector scatter at k: the operand's entry plus the sum of the updates whose index is k
  refine (Cert.LibScatter.scatterAdd_vec_apply _ rfl rfl rfl rfl _ _ _ k).trans ?_
  -- the operand is the zero word everywhere, every update the word of 1
  have hx : broadcastInDim S1000 ![] bcast_S_S1000 (constant (F := Ideal) S_ .f32 0x00000000#32) (ix1 k)
      = (0 : EReal) := Ideal.ofBits_zero_f32
  refine (congrArg (fun t => t + _) hx).trans ?_
  refine (zero_add _).trans ?_
  refine Finset.sum_congr rfl fun n _ => ?_
  have h1 : broadcastInDim S262144 ![] bcast_S_S262144 (constant (F := Ideal) S_ .f32 0x3F800000#32) (ix1 n)
      = (1 : EReal) := ofBits_one_f32
  rw [lblcol_apply, h1]

end Cert.ReferenceIdeal.RefValue

end
-- ==== Proof.Bridge.lean ====
/-
  The two programs meet.

  The reference's result is the shared closing step of its two scatters, which hold at class k the sum (column by
  column) and the number of the rows labelled k. The kernel program's merged sums and counts hold the same: the two
  cores' sums over their tiles are the sums over all rows, the label column the kernel reads is the label vector
  under a trailing unit axis, and the feature array is the one launched.
-/
import proofs.«413044_j53850299957289_3_alg».proof.Proof.Tail
import proofs.«413044_j53850299957289_3_alg».proof.Proof.Total
import proofs.«413044_j53850299957289_3_alg».proof.Proof.RefValue

set_option maxRecDepth 16384

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

/-- THE REFERENCE'S RESULT is the closing step of any sums and counts that hold, at class k, the sum and the number
    of the rows labelled k. -/
theorem result_eq (lbl : IVec S262144 32) (feat : FVec Ideal S262144x256 .f32) (p : FVec Ideal S1000x256 .f32)
    (S : FVec Ideal S1000x256 .f32) (Cn : FVec Ideal S1000 .f32)
    (hS : ∀ (k : Fin 1000) (d : Fin 256),
      S (ix2 k d) = ∑ n : Fin 262144, (if (lbl (ix1 n)).toInt = (k.val : Int) then feat (ix2 n d) else 0))
    (hC : ∀ k : Fin 1000,
      Cn (ix1 k) = ∑ n : Fin 262144, (if (lbl (ix1 n)).toInt = (k.val : Int) then (1 : EReal) else 0)) :
    select (broadcastInDim S1000x256 ![0, 1] bcast_S1000x1_S1000x256_0_1 (broadcastInDim S1000x1 ![0] bcast_S1000_S1000x1_0 (cmpf (F := Ideal) .ogt (Host.scatterAdd (F := Ideal) scatter_S1000_S262144x1_S262144_n_0_0_1 (broadcastInDim S1000 ![] bcast_S_S1000 (constant (F := Ideal) S_ .f32 0x00000000#32)) (broadcastInDim S262144x1 ![0] bcast_S262144_S262144x1_0 lbl) (broadcastInDim S262144 ![] bcast_S_S262144 (constant (F := Ideal) S_ .f32 0x3F800000#32))) (broadcastInDim S1000 ![] bcast_S_S1000 (constant (F := Ideal) S_ .f32 0x00000000#32))))) (addf (mulf (broadcastInDim S1000x256 ![] bcast_S_S1000x256 (constant (F := Ideal) S_ .f32 0x3F666666#32)) p) (mulf (broadcastInDim S1000x256 ![] bcast_S_S1000x256 (constant (F := Ideal) S_ .f32 0x3DCCCCCD#32)) (Host.divf (F := Ideal) (Host.scatterAdd (F := Ideal) scatter_S1000x256_S262144x1_S262144x256_1_0_0_1 (broadcastInDim S1000x256 ![] bcast_S_S1000x256 (constant (F := Ideal) S_ .f32 0x00000000#32)) (broadcastInDim S262144x1 ![0] bcast_S262144_S262144x1_0 lbl) feat) (broadcastInDim S1000x256 ![0, 1] bcast_S1000x1_S1000x256_0_1 (broadcastInDim S1000x1 ![0] bcast_S1000_S1000x1_0 (maximumf (Host.scatterAdd (F := Ideal) scatter_S1000_S262144x1_S262144_n_0_0_1 (broadcastInDim S1000 ![] bcast_S_S1000 (constant (F := Ideal) S_ .f32 0x00000000#32)) (broadcastInDim S262144x1 ![0] bcast_S262144_S262144x1_0 lbl) (broadcastInDim S262144 ![] bcast_S_S262144 (constant (F := Ideal) S_ .f32 0x3F800000#32))) (broadcastInDim S1000 ![] bcast_S_S1000 (constant (F := Ideal) S_ .f32 0x3F800000#32)))))))) p
      = Cert.Finish.finish (F := Ideal) S Cn p := by
  have e1 : Host.scatterAdd (F := Ideal) scatter_S1000x256_S262144x1_S262144x256_1_0_0_1 (broadcastInDim S1000x256 ![] bcast_S_S1000x256 (constant (F := Ideal) S_ .f32 0x00000000#32)) (broadcastInDim S262144x1 ![0] bcast_S262144_S262144x1_0 lbl) feat = S := by
    funext j
    obtain ⟨k, d, rfl⟩ : ∃ (k : Fin 1000) (d : Fin 256), j = ix2 k d := ⟨j 0, j 1, eq_ix2 j⟩
    rw [sums_ref_apply, hS]
  have e2 : Host.scatterAdd (F := Ideal) scatter_S1000_S262144x1_S262144_n_0_0_1 (broadcastInDim S1000 ![] bcast_S_S1000 (constant (F := Ideal) S_ .f32 0x00000000#32)) (broadcastInDim S262144x1 ![0] bcast_S262144_S262144x1_0 lbl) (broadcastInDim S262144 ![] bcast_S_S262144 (constant (F := Ideal) S_ .f32 0x3F800000#32)) = Cn := by
    funext j
    obtain ⟨k, rfl⟩ : ∃ k : Fin 1000, j = ix1 k := ⟨j 0, eq_ix1 j⟩
    rw [cnts_ref_apply, hC]
  rw [e1, e2]
  rfl

end Cert.ReferenceIdeal.RefValue

namespace Cert.KernelIdeal.Bridge

open Cert.KernelIdeal Cert.KernelIdeal.Gen Cert.KernelIdeal.Acc Cert.KernelIdeal.Tail Idealize.ShloMosaic.StableHlo

variable (m : (ℓ : Loc nD τ sig) → Buf (Elt Ideal) ℓ)

/-- The label vector and the feature array as launched. -/
abbrev lblv (c : Dev nD) : IVec S262144 32 := m ((c : Thread nD τ).loc main_arg1)
abbrev ftrv (c : Dev nD) : FVec Ideal S262144x256 .f32 := m ((c : Thread nD τ).loc main_arg0)

/-- The label column the call reads is the label vector under a trailing unit axis. -/
theorem lcol_apply (c : Dev nD) (n : Fin 262144) :
    lcol m c (ix2 n 0) = lblv m c (ix1 n) := by
  have e : (V m c main_v0 : S262144x1.Idx → BitVec 32)
      = shapeCast S262144x1 (m ((c : Thread nD τ).loc main_arg1)) shapeCasts_S262144_S262144x1 := by
    show StableHlo.after hostOps0 (fun b => m (c, b)) (Proc.devRef .tc main_v0) = _
    after_results
    rfl
  show V m c main_v0 (ix2 n 0) = _
  rw [e]
  exact shapeCast_apply _ _ (ix2 n 0) (ix1 n) (by
    rw [Shape.rowMajor_val_one, Shape.rowMajor_val_two]; show n.val = n.val * 1 + 0; omega)

/-- THE KERNEL PROGRAM'S MERGED SUMS AND COUNTS hold, at class k, the sum and the number of ALL rows labelled k. -/
theorem kernel_sums (c : Dev nD) (k : Fin 1000) (d : Fin 256) :
    mergeSums (F := Ideal) (sumsArr m c) (ix2 k d)
      = ∑ n : Fin 262144, (if (lblv m c (ix1 n)).toInt = (k.val : Int) then ftrv m c (ix2 n d) else (0 : EReal)) := by
  rw [mergeSums_apply]
  show coreSum m c 0 (⟨k.val, by have := k.isLt; omega⟩ : Fin 1024) d + coreSum m c 1 (⟨k.val, by have := k.isLt; omega⟩ : Fin 1024) d = _
  rw [total_sums]
  refine Finset.sum_congr rfl fun n _ => ?_
  rw [lcol_apply, show feat m c = ftrv m c from V_main_arg0 m c]

theorem kernel_cnts (c : Dev nD) (k : Fin 1000) :
    mergeCnts (F := Ideal) (cntsArr m c) (ix1 k)
      = ∑ n : Fin 262144, (if (lblv m c (ix1 n)).toInt = (k.val : Int) then (1 : EReal) else 0) := by
  rw [mergeCnts_apply]
  show coreCnt m c 0 (⟨k.val, by have := k.isLt; omega⟩ : Fin 1024) + coreCnt m c 1 (⟨k.val, by have := k.isLt; omega⟩ : Fin 1024) = _
  rw [total_cnts]
  refine Finset.sum_congr rfl fun n _ => ?_
  rw [lcol_apply]

end Cert.KernelIdeal.Bridge

end
-- ==== Proof.lean ====
/-
  The certificate: a per-class running mean of feature rows, computed by a two-core tiled kernel, against the plain
  segment-sum reference.

  Every feature row carries an integer label. For each of 1000 classes both programs form the sum of the rows with
  that label and their number, take the mean (sum / max(count, 1)), blend it into the class prototype
  (0.9 · prototype + 0.1 · mean) and keep the old prototype where the count is not positive.

  The reference scatters rows and ones by label; an update whose label is not in 0 … 999 is dropped. The kernel
  program cuts the 262144 rows into 128 tiles of 2048, gives tiles 0 … 63 to one core and 64 … 127 to the other, and
  per tile contracts the indicator "label = class number" (class numbers 0 … 1023 along the lanes) with the tile over
  the row axis, accumulating per core; afterwards it adds the two cores' results and keeps classes 0 … 999. A label
  outside 0 … 1023 matches no lane and a label in 1000 … 1023 lands in a discarded class, so the kernel drops exactly
  the rows the reference drops. Over the extended reals sums reorder freely and the indicator's 0 and 1 multiply as
  they should, so both programs hold the same class sums and counts for every input, and their shared closing step
  gives equal results: the finiteness precondition is never opened.

  The frames are the generated ones (the reference's is its run with the result dropped); the one rewrite of the
  ideal pass is the removed bf16 round trip of the indicator.
-/
import proofs.«413044_j53850299957289_3_alg».proof.Defs
import proofs.«413044_j53850299957289_3_alg».proof.Proof.Gen.Kernel
import proofs.«413044_j53850299957289_3_alg».proof.Proof.Gen.Kernel.Frame
import proofs.«413044_j53850299957289_3_alg».proof.Proof.Gen.KernelIdeal
import proofs.«413044_j53850299957289_3_alg».proof.Proof.Gen.KernelIdeal.Frame
import proofs.«413044_j53850299957289_3_alg».proof.Proof.Gen.ReferenceIdeal
import proofs.«413044_j53850299957289_3_alg».proof.Proof.Gen.Pre_finite_inputs
import proofs.«413044_j53850299957289_3_alg».proof.Proof.RefRun
import proofs.«413044_j53850299957289_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- The one rewrite: the indicator rounded to bf16 and widened back is, at the ideal values, the indicator. -/
theorem preserves : Cert.preserves_Kernel_KernelIdeal :=
  IdealRules.truncf_extf.statement _ .f32 .bf16

section
open Cert.KernelIdeal Cert.KernelIdeal.Gen

/-- THE KERNEL PROGRAM'S RUN, READ: its result is the closing step of the merged sums and counts; the arguments are
    unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27)
          = Cert.Finish.finish (F := Ideal) (Tail.mergeSums (Acc.sumsArr m c)) (Tail.mergeCnts (Acc.cntsArr m c))
              (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c =>
    ⟨((h c).2 main_v27 (Pipeline.mem_restRefs_of main_v27 (by decide) (by decide))).trans (Tail.tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end

/-- Both programs end with the same class sums and counts, hence with equal results. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2]
  exact Cert.ReferenceIdeal.RefValue.result_eq _ _ _ _ _
    (fun k d => Cert.KernelIdeal.Bridge.kernel_sums m c k d) (fun k => Cert.KernelIdeal.Bridge.kernel_cnts m c k)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
